-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S100000 : Shape := ⟨1, ![100000]⟩
abbrev S800000 : Shape := ⟨1, ![800000]⟩
abbrev S20002x1 : Shape := ⟨2, ![20002, 1]⟩
abbrev S100x100 : Shape := ⟨2, ![100, 100]⟩
abbrev S100 : Shape := ⟨1, ![100]⟩
abbrev S50x100 : Shape := ⟨2, ![50, 100]⟩
abbrev S50 : Shape := ⟨1, ![50]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S800000 : S_.BroadcastsInDim S800000 (![] : Fin 0 → Fin S800000.rank)
  reducesTo_S800000_S_d0 : S800000.ReducesTo [0] S_
  bcast_S_S20002x1 : S_.BroadcastsInDim S20002x1 (![] : Fin 0 → Fin S20002x1.rank)
  reducesTo_S20002x1_S_d0_1 : S20002x1.ReducesTo [0, 1] S_
  bcast_S_S100x100 : S_.BroadcastsInDim S100x100 (![] : Fin 0 → Fin S100x100.rank)
  reducesTo_S100x100_S_d0_1 : S100x100.ReducesTo [0, 1] S_
  bcast_S_S100 : S_.BroadcastsInDim S100 (![] : Fin 0 → Fin S100.rank)
  reducesTo_S100_S_d0 : S100.ReducesTo [0] S_
  bcast_S_S50x100 : S_.BroadcastsInDim S50x100 (![] : Fin 0 → Fin S50x100.rank)
  reducesTo_S50x100_S_d0_1 : S50x100.ReducesTo [0, 1] S_
  bcast_S_S50 : S_.BroadcastsInDim S50 (![] : Fin 0 → Fin S50.rank)
  reducesTo_S50_S_d0 : S50.ReducesTo [0] S_

variable [Facts]

def fn_part2 {F : FTy → Type} [FloatOps F] (main_arg10 : FVec F S50x100 .f32) (main_arg11 : FVec F S50 .f32) (main_v33 : IVec S_ 1) : IVec S_ 1 :=
  let main_v34 : FVec F S50x100 .f32 := Host.absf main_arg10
  let main_cst_12 : FVec F S_ .f32 := constant S_ .f32 0x7F800000#32
  let main_v35 : FVec F S50x100 .f32 := broadcastInDim S50x100 ![] bcast_S_S50x100 main_cst_12
  let main_v36 : IVec S50x100 1 := cmpf .olt main_v34 main_v35
  let main_c_13 : IVec S_ 1 := constantI S_ 1 1#1
  let main_v37 : IVec S_ 1 := (fun x v => Host.reduce IntOp.andi x v reducesTo_S50x100_S_d0_1 h_S_) main_v36 main_c_13
  let main_v38 : IVec S_ 1 := andi main_v33 main_v37
  let main_v39 : FVec F S50 .f32 := Host.absf main_arg11
  let main_cst_14 : FVec F S_ .f32 := constant S_ .f32 0x7F800000#32
  let main_v40 : FVec F S50 .f32 := broadcastInDim S50 ![] bcast_S_S50 main_cst_14
  let main_v41 : IVec S50 1 := cmpf .olt main_v39 main_v40
  let main_c_15 : IVec S_ 1 := constantI S_ 1 1#1
  let main_v42 : IVec S_ 1 := (fun x v => Host.reduce IntOp.andi x v reducesTo_S50_S_d0 h_S_) main_v41 main_c_15
  let main_v43 : IVec S_ 1 := andi main_v38 main_v42
  main_v43

def fn_part1 {F : FTy → Type} [FloatOps F] (main_arg7 : FVec F S100 .f32) (main_arg8 : FVec F S100x100 .f32) (main_arg9 : FVec F S100 .f32) (main_arg10 : FVec F S50x100 .f32) (main_arg11 : FVec F S50 .f32) (main_v13 : IVec S_ 1) (main_v16 : IVec S100x100 1) : IVec S_ 1 :=
  let main_c_5 : IVec S_ 1 := constantI S_ 1 1#1
  let main_v17 : IVec S_ 1 := (fun x v => Host.reduce IntOp.andi x v reducesTo_S100x100_S_d0_1 h_S_) main_v16 main_c_5
  let main_v18 : IVec S_ 1 := andi main_v13 main_v17
  let main_v19 : FVec F S100 .f32 := Host.absf main_arg7
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_v24 : FVec F S100x100 .f32 := Host.absf main_arg8
  let main_cst_8 : FVec F S_ .f32 := constant S_ .f32 0x7F800000#32
  let main_v25 : FVec F S100x100 .f32 := broadcastInDim S100x100 ![] bcast_S_S100x100 main_cst_8
  let main_v26 : IVec S100x100 1 := cmpf .olt main_v24 main_v25
  let main_c_9 : IVec S_ 1 := constantI S_ 1 1#1
  let main_v27 : IVec S_ 1 := (fun x v => Host.reduce IntOp.andi x v reducesTo_S100x100_S_d0_1 h_S_) main_v26 main_c_9
  let main_v28 : IVec S_ 1 := andi main_v23 main_v27
  let main_v29 : FVec F S100 .f32 := Host.absf main_arg9
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg10 main_arg11 main_v33

def fn {F : FTy → Type} [FloatOps F] (main_arg0 : FVec F S100000x100 .f32) (main_arg1 : IVec S100000 32) (main_arg2 : IVec S800000 32) (main_arg3 : IVec S800000 32) (main_arg4 : FVec F S800000 .f32) (main_arg5 : FVec F S20002x1 .f32) (main_arg6 : FVec F S100x100 .f32) (main_arg7 : FVec F S100 .f32) (main_arg8 : FVec F S100x100 .f32) (main_arg9 : FVec F S100 .f32) (main_arg10 : FVec F S50x100 .f32) (main_arg11 : FVec F S50 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S800000 .f32 := Host.absf main_arg4
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S20002x1 .f32 := Host.absf main_arg5
  let main_cst_2 : FVec F S_ .f32 := constant S_ .f32 0x7F800000#32
  let main_v10 : FVec F S20002x1 .f32 := broadcastInDim S20002x1 ![] bcast_S_S20002x1 main_cst_2
  let main_v11 : IVec S20002x1 1 := cmpf .olt main_v9 main_v10
  let main_c_3 : IVec S_ 1 := constantI S_ 1 1#1
  let main_v12 : IVec S_ 1 := (fun x v => Host.reduce IntOp.andi x v reducesTo_S20002x1_S_d0_1 h_S_) main_v11 main_c_3
  let main_v13 : IVec S_ 1 := andi main_v8 main_v12
  let main_v14 : FVec F S100x100 .f32 := Host.absf main_arg6
  let main_cst_4 : FVec F S_ .f32 := constant S_ .f32 0x7F800000#32
  let main_v15 : FVec F S100x100 .f32 := broadcastInDim S100x100 ![] bcast_S_S100x100 main_cst_4
  let main_v16 : IVec S100x100 1 := cmpf .olt main_v14 main_v15
  fn_part1 (F := F) main_arg7 main_arg8 main_arg9 main_arg10 main_arg11 main_v13 main_v16
-- ==== Kernel.lean ====
abbrev S100000x100 : Shape := ⟨2, ![100000, 100]⟩
abbrev S100000 : Shape := ⟨1, ![100000]⟩
abbrev S800000 : Shape := ⟨1, ![800000]⟩
abbrev S20002x1 : Shape := ⟨2, ![20002, 1]⟩
abbrev S100x100 : Shape := ⟨2, ![100, 100]⟩
abbrev S100 : Shape := ⟨1, ![100]⟩
abbrev S50x100 : Shape := ⟨2, ![50, 100]⟩
abbrev S50 : Shape := ⟨1, ![50]⟩
abbrev S_ : Shape := ⟨0, ![]⟩
abbrev S800000x1 : Shape := ⟨2, ![800000, 1]⟩
abbrev S100000x1 : Shape := ⟨2, ![100000, 1]⟩
abbrev S800000x100 : Shape := ⟨2, ![800000, 100]⟩
abbrev S10000x100 : Shape := ⟨2, ![10000, 100]⟩
abbrev S1x100 : Shape := ⟨2, ![1, 100]⟩
abbrev S100000x50 : Shape := ⟨2, ![100000, 50]⟩
abbrev S10000x50 : Shape := ⟨2, ![10000, 50]⟩
abbrev S1x50 : Shape := ⟨2, ![1, 50]⟩

abbrev nBuf : Space → Nat
  | .hbm => 127
  | .vmem => 18
  | .smem => 0
  | _ => 0

abbrev bufTy : (tb : Table) → Fin (tcTables nBuf tb) → BufTy
  | .hbm, ⟨0, _⟩ => ⟨S100000x100, .f32⟩
  | .hbm, ⟨1, _⟩ => ⟨S100000, .i32⟩
  | .hbm, ⟨2, _⟩ => ⟨S800000, .i32⟩
  | .hbm, ⟨3, _⟩ => ⟨S800000, .i32⟩
  | .hbm, ⟨4, _⟩ => ⟨S800000, .f32⟩
  | .hbm, ⟨5, _⟩ => ⟨S20002x1, .f32⟩
  | .hbm, ⟨6, _⟩ => ⟨S100x100, .f32⟩
  | .hbm, ⟨7, _⟩ => ⟨S100, .f32⟩
  | .hbm, ⟨8, _⟩ => ⟨S100x100, .f32⟩
  | .hbm, ⟨9, _⟩ => ⟨S100, .f32⟩
  | .hbm, ⟨10, _⟩ => ⟨S50x100, .f32⟩
  | .hbm, ⟨11, _⟩ => ⟨S50, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000, .i32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000, .i32⟩
  | .hbm, ⟨30, _⟩ => ⟨S_, .i32⟩
  | .hbm, ⟨31, _⟩ => ⟨S800000, .i32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S800000, .i1⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S800000, .i1⟩
  | .hbm, ⟨47, _⟩ => ⟨S800000, .i32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S800000, .i1⟩
  | .hbm, ⟨55, _⟩ => ⟨S_, .i32⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x1, .f32⟩
  | .hbm, ⟨68, _⟩ => ⟨S800000x1, .f32⟩
  | .hbm, ⟨69, _⟩ => ⟨S800000x1, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S100000, .f32⟩
  | .hbm, ⟨74, _⟩ => ⟨S800000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S_, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x100, .f32⟩
  | .hbm, ⟨99, _⟩ => ⟨S800000x100, .f32⟩
  | .hbm, ⟨100, _⟩ => ⟨S800000x100, .f32⟩
  | .hbm, ⟨101, _⟩ => ⟨S_, .f32⟩
  | .hbm, ⟨102, _⟩ => ⟨S100000x100, .f32⟩
  | .hbm, ⟨103, _⟩ => ⟨S800000x1, .i32⟩
  | .hbm, ⟨104, _⟩ => ⟨S100000x100, .f32⟩
  | .hbm, ⟨105, _⟩ => ⟨S100000x100, .f32⟩
  | .hbm, ⟨106, _⟩ => ⟨S100000x100, .f32⟩
  | .hbm, ⟨107, _⟩ => ⟨S100000x100, .f32⟩
  | .hbm, ⟨108, _⟩ => ⟨S_, .i32⟩
  | .hbm, ⟨109, _⟩ => ⟨S800000, .i32⟩
  | .hbm, ⟨110, _⟩ => ⟨S800000, .i1⟩
  | .hbm, ⟨111, _⟩ => ⟨S_, .i32⟩
  | .hbm, ⟨112, _⟩ => ⟨S800000, .i32⟩
  | .hbm, ⟨113, _⟩ => ⟨S800000, .i32⟩
  | .hbm, ⟨114, _⟩ => ⟨S800000, .i32⟩
  | .hbm, ⟨115, _⟩ => ⟨S800000x1, .i32⟩
  | .hbm, ⟨116, _⟩ => ⟨S800000x100, .f32⟩
  | .hbm, ⟨117, _⟩ => ⟨S800000x100, .f32⟩
  | .hbm, ⟨118, _⟩ => ⟨S800000x100, .f32⟩
  | .hbm, ⟨119, _⟩ => ⟨S_, .f32⟩
  | .hbm, ⟨120, _⟩ => ⟨S100000x100, .f32⟩
  | .hbm, ⟨121, _⟩ => ⟨S800000x1, .i32⟩
  | .hbm, ⟨122, _⟩ => ⟨S100000x100, .f32⟩
  | .hbm, ⟨123, _⟩ => ⟨S100000x100, .f32⟩
  | .hbm, ⟨124, _⟩ => ⟨S100000x100, .f32⟩
  | .hbm, ⟨125, _⟩ => ⟨S100000x100, .f32⟩
  | .hbm, ⟨126, _⟩ => ⟨S100000x50, .f32⟩
  | .local _ .vmem, ⟨0, _⟩ => ⟨S10000x100, .f32⟩
  | .local _ .vmem, ⟨1, _⟩ => ⟨S10000x100, .f32⟩
  | .local _ .vmem, ⟨2, _⟩ => ⟨S100x100, .f32⟩
  | .local _ .vmem, ⟨3, _⟩ => ⟨S100, .f32⟩
  | .local _ .vmem, ⟨4, _⟩ => ⟨S10000x100, .f32⟩
  | .local _ .vmem, ⟨5, _⟩ => ⟨S10000x100, .f32⟩
  | .local _ .vmem, ⟨6, _⟩ => ⟨S10000x100, .f32⟩
  | .local _ .vmem, ⟨7, _⟩ => ⟨S10000x100, .f32⟩
  | .local _ .vmem, ⟨8, _⟩ => ⟨S100x100, .f32⟩
  | .local _ .vmem, ⟨9, _⟩ => ⟨S100, .f32⟩
  | .local _ .vmem, ⟨10, _⟩ => ⟨S10000x100, .f32⟩
  | .local _ .vmem, ⟨11, _⟩ => ⟨S10000x100, .f32⟩
  | .local _ .vmem, ⟨12, _⟩ => ⟨S10000x100, .f32⟩
  | .local _ .vmem, ⟨13, _⟩ => ⟨S10000x100, .f32⟩
  | .local _ .vmem, ⟨14, _⟩ => ⟨S50x100, .f32⟩
  | .local _ .vmem, ⟨15, _⟩ => ⟨S50, .f32⟩
  | .local _ .vmem, ⟨16, _⟩ => ⟨S10000x50, .f32⟩
  | .local _ .vmem, ⟨17, _⟩ => ⟨S10000x50, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_c_12 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_v49 : Ref sig .tc := ⟨.hbm, 81, rfl⟩
abbrev main_cst_16 : Ref sig .tc := ⟨.hbm, 82, rfl⟩
abbrev main_v50 : Ref sig .tc := ⟨.hbm, 83, rfl⟩
abbrev main_v51 : Ref sig .tc := ⟨.hbm, 84, rfl⟩
abbrev main_cst_17 : Ref sig .tc := ⟨.hbm, 85, rfl⟩
abbrev main_call3_v0 : Ref sig .tc := ⟨.hbm, 86, rfl⟩
abbrev main_call3_v1 : Ref sig .tc := ⟨.hbm, 87, rfl⟩
abbrev main_v52 : Ref sig .tc := ⟨.hbm, 88, rfl⟩
abbrev main_v53 : Ref sig .tc := ⟨.hbm, 89, rfl⟩
abbrev main_c_18 : Ref sig .tc := ⟨.hbm, 90, rfl⟩
abbrev main_v54 : Ref sig .tc := ⟨.hbm, 91, rfl⟩
abbrev main_v55 : Ref sig .tc := ⟨.hbm, 92, rfl⟩
abbrev main_c_19 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_20 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_c_21 : Ref sig .tc := ⟨.hbm, 108, rfl⟩
abbrev main_v69 : Ref sig .tc := ⟨.hbm, 109, rfl⟩
abbrev main_v70 : Ref sig .tc := ⟨.hbm, 110, rfl⟩
abbrev main_c_22 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_23 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S100x100 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x100 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S50x100 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S50 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x50 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S800000x1_S800000x100_0_1 : S800000x1.BroadcastsInDim S800000x100 (![0, 1] : Fin 2 → Fin S800000x100.rank)
  bcast_S_S100000x100 : S_.BroadcastsInDim S100000x100 (![] : Fin 0 → Fin S100000x100.rank)
  bcast_S100000x1_S100000x100_0_1 : S100000x1.BroadcastsInDim S100000x100 (![0, 1] : Fin 2 → Fin S100000x100.rank)
  inb_S10000x100_S10000x100_0_0 : ∀ a, (![0, 0] : Fin 2 → Nat) a + S10000x100.size a ≤ S10000x100.size a
  h_S10000x100 : 0 < S10000x100.numel
  shapeCasts_S10000x100_S10000x100 : S10000x100.ShapeCasts S10000x100
  bitsLt_bf16_f32 : FTy.bits .bf16 < FTy.bits .f32
  inb_S100x100_S100x100_0_0 : ∀ a, (![0, 0] : Fin 2 → Nat) a + S100x100.size a ≤ S100x100.size a
  h_S100x100 : 0 < S100x100.numel
  inb_S100_S100_0 : ∀ a, (![0] : Fin 1 → Nat) a + S100.size a ≤ S100.size a
  h_S100 : 0 < S100.numel
  shapeCasts_S100_S1x100 : S100.ShapeCasts S1x100
  broadcasts_S1x100_S10000x100 : S1x100.Broadcasts S10000x100
  inb_S50x100_S50x100_0_0 : ∀ a, (![0, 0] : Fin 2 → Nat) a + S50x100.size a ≤ S50x100.size a
  h_S50x100 : 0 < S50x100.numel
  inb_S50_S50_0 : ∀ a, (![0] : Fin 1 → Nat) a + S50.size a ≤ S50.size a
  h_S50 : 0 < S50.numel
  shapeCasts_S50_S1x50 : S50.ShapeCasts S1x50
  broadcasts_S1x50_S10000x50 : S1x50.Broadcasts S10000x50
  inb_S10000x50_S10000x50_0_0 : ∀ a, (![0, 0] : Fin 2 → Nat) a + S10000x50.size a ≤ S10000x50.size a
  h_S10000x50 : 0 < S10000x50.numel
  gather_S100000_S800000x1_S800000_n_0_n_n_0_1_1_wf : GatherDims.WF S100000 S800000x1 S800000 [] [0] [] [0] [] 1 ![1]
  gather_S20002x1_S800000x1_S800000x1_1_0_n_n_0_1_11_wf : GatherDims.WF S20002x1 S800000x1 S800000x1 [1] [0] [] [0] [] 1 ![1, 1]
  scatter_S100000_S800000x1_S800000_n_0_0_1_wf : ScatterDims.WF S100000 S800000x1 S800000 [] [0] [0] 1
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  dot_S10000x100_S100x100_S10000x100_1_1_0_0_n_n_wf : DotDims.WF S10000x100 S100x100 S10000x100 [1] [1] [0] [0] [] []
  dot_S10000x100_S50x100_S10000x50_1_1_0_0_n_n_wf : DotDims.WF S10000x100 S50x100 S10000x50 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x100.size a ≤ S100000x100.size a
  hwx0_0 : ∀ i : grid0.Coords, EltTy.bits .f32 = 32 ∨ (Rect.block (s := S100000x100) S10000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x100.size a ≤ S100x100.size a
  hwx0_1 : ∀ i : grid0.Coords, EltTy.bits .f32 = 32 ∨ (Rect.block (s := S100x100) S100x100.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S100.size a ≤ S100.size a
  hwx0_2 : ∀ i : grid0.Coords, EltTy.bits .f32 = 32 ∨ (Rect.block (s := S100) S100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x100.size a ≤ S100000x100.size a
  hwx0_3 : ∀ i : grid0.Coords, EltTy.bits .f32 = 32 ∨ (Rect.block (s := S100000x100) S10000x100.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x100.size a ≤ S100000x100.size a
  hwx1_0 : ∀ i : grid1.Coords, EltTy.bits .f32 = 32 ∨ (Rect.block (s := S100000x100) S10000x100.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100x100.size a ≤ S100x100.size a
  hwx1_1 : ∀ i : grid1.Coords, EltTy.bits .f32 = 32 ∨ (Rect.block (s := S100x100) S100x100.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100.size a ≤ S100.size a
  hwx1_2 : ∀ i : grid1.Coords, EltTy.bits .f32 = 32 ∨ (Rect.block (s := S100) S100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x100.size a ≤ S100000x100.size a
  hwx1_3 : ∀ i : grid1.Coords, EltTy.bits .f32 = 32 ∨ (Rect.block (s := S100000x100) S10000x100.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x100.size a ≤ S100000x100.size a
  hwx2_0 : ∀ i : grid2.Coords, EltTy.bits .f32 = 32 ∨ (Rect.block (s := S100000x100) S10000x100.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S50x100.size a ≤ S50x100.size a
  hwx2_1 : ∀ i : grid2.Coords, EltTy.bits .f32 = 32 ∨ (Rect.block (s := S50x100) S50x100.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50.size a ≤ S50.size a
  hwx2_2 : ∀ i : grid2.Coords, EltTy.bits .f32 = 32 ∨ (Rect.block (s := S50) S50.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x50.size a ≤ S100000x50.size a
  hwx2_3 : ∀ i : grid2.Coords, EltTy.bits .f32 = 32 ∨ (Rect.block (s := S100000x50) S10000x50.size (cc2_transform_3 i) (hinb2_3 i)).WholeWords (EltTy.packing .f32)

variable [Facts₀]

def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S20002x1_S800000x1_S800000x1_1_0_n_n_0_1_11 : GatherDims S20002x1 S800000x1 S800000x1 where
  offsetDims := [1]
  collapsedSliceDims := [0]
  operandBatchingDims := []
  startIndicesBatchingDims := []
  startIndexMap := [0]
  indexVectorDim := 1
  sliceSizes := ![1, 1]
  wf := gather_S20002x1_S800000x1_S800000x1_1_0_n_n_0_1_11_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def dot_S10000x100_S100x100_S10000x100_1_1_0_0_n_n : DotDims S10000x100 S100x100 S10000x100 where
  lhsContracting := [1]
  rhsContracting := [1]
  lhsNonContracting := [0]
  rhsNonContracting := [0]
  lhsBatch := []
  rhsBatch := []
  wf := dot_S10000x100_S100x100_S10000x100_1_1_0_0_n_n_wf
def dot_S10000x100_S50x100_S10000x50_1_1_0_0_n_n : DotDims S10000x100 S50x100 S10000x50 where
  lhsContracting := [1]
  rhsContracting := [1]
  lhsNonContracting := [0]
  rhsNonContracting := [0]
  lhsBatch := []
  rhsBatch := []
  wf := dot_S10000x100_S50x100_S10000x50_1_1_0_0_n_n_wf

abbrev win0_0 : Pipeline.Window sig grid0 :=
  Pipeline.Window.ofSpec (Memref.whole main_v67) S10000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S100x100.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v68) S10000x100.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v82) S10000x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S100x100.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S100.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v83) S10000x100.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v83) S10000x100.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S50x100.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v84) S10000x50.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x100 : Shape := ⟨2, ![100000, 100]⟩
abbrev S100000 : Shape := ⟨1, ![100000]⟩
abbrev S800000 : Shape := ⟨1, ![800000]⟩
abbrev S20002x1 : Shape := ⟨2, ![20002, 1]⟩
abbrev S100x100 : Shape := ⟨2, ![100, 100]⟩
abbrev S100 : Shape := ⟨1, ![100]⟩
abbrev S50x100 : Shape := ⟨2, ![50, 100]⟩
abbrev S50 : Shape := ⟨1, ![50]⟩
abbrev S_ : Shape := ⟨0, ![]⟩
abbrev S800000x1 : Shape := ⟨2, ![800000, 1]⟩
abbrev S100000x1 : Shape := ⟨2, ![100000, 1]⟩
abbrev S800000x100 : Shape := ⟨2, ![800000, 100]⟩
abbrev S1x100 : Shape := ⟨2, ![1, 100]⟩
abbrev S100x50 : Shape := ⟨2, ![100, 50]⟩
abbrev S100000x50 : Shape := ⟨2, ![100000, 50]⟩
abbrev S1x50 : Shape := ⟨2, ![1, 50]⟩

abbrev nBuf : Space → Nat
  | .hbm => 145
  | .vmem => 0
  | .smem => 0
  | _ => 0

abbrev hbmTy0_0 (i : Nat) : BufTy := match i % 128 with
  | 0 => ⟨S100000x100, .f32⟩
  | 1 => ⟨S100000, .i32⟩
  | 2 => ⟨S800000, .i32⟩
  | 3 => ⟨S800000, .i32⟩
  | 4 => ⟨S800000, .f32⟩
  | 5 => ⟨S20002x1, .f32⟩
  | 6 => ⟨S100x100, .f32⟩
  | 7 => ⟨S100, .f32⟩
  | 8 => ⟨S100x100, .f32⟩
  | 9 => ⟨S100, .f32⟩
  | 10 => ⟨S50x100, .f32⟩
  | 11 => ⟨S50, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000, .i32⟩
  | 30 => ⟨S_, .i32⟩
  | 31 => ⟨S800000, .i32⟩
  | 32 => ⟨S_, .i32⟩
  | 33 => ⟨S800000, .i32⟩
  | 34 => ⟨S800000, .i1⟩
  | 35 => ⟨S_, .i32⟩
  | 36 => ⟨S800000, .i32⟩
  | 37 => ⟨S800000, .i1⟩
  | 38 => ⟨S800000, .i1⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i1⟩
  | 46 => ⟨S800000, .i1⟩
  | 47 => ⟨S800000, .i32⟩
  | 48 => ⟨S_, .i32⟩
  | 49 => ⟨S800000, .i32⟩
  | 50 => ⟨S800000, .i1⟩
  | 51 => ⟨S_, .i32⟩
  | 52 => ⟨S800000, .i32⟩
  | 53 => ⟨S800000, .i1⟩
  | 54 => ⟨S800000, .i1⟩
  | 55 => ⟨S_, .i32⟩
  | 56 => ⟨S_, .i32⟩
  | 57 => ⟨S800000, .i32⟩
  | 58 => ⟨S800000, .i32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x1, .f32⟩
  | 68 => ⟨S800000x1, .f32⟩
  | 69 => ⟨S800000x1, .f32⟩
  | 70 => ⟨S_, .f32⟩
  | 71 => ⟨S800000, .f32⟩
  | 72 => ⟨S_, .f32⟩
  | 73 => ⟨S100000, .f32⟩
  | 74 => ⟨S800000x1, .i32⟩
  | 75 => ⟨S100000, .f32⟩
  | 76 => ⟨S_, .f32⟩
  | 77 => ⟨S100000, .f32⟩
  | 78 => ⟨S100000, .i1⟩
  | 79 => ⟨S_, .f32⟩
  | 80 => ⟨S100000, .f32⟩
  | 81 => ⟨S100000, .f32⟩
  | 82 => ⟨S_, .f32⟩
  | 83 => ⟨S100000, .f32⟩
  | 84 => ⟨S100000, .f32⟩
  | 85 => ⟨S_, .f32⟩
  | 86 => ⟨S_, .f32⟩
  | 87 => ⟨S100000, .f32⟩
  | 88 => ⟨S100000, .f32⟩
  | 89 => ⟨S100000x1, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x100, .f32⟩
  | 99 => ⟨S800000x100, .f32⟩
  | 100 => ⟨S800000x100, .f32⟩
  | 101 => ⟨S_, .f32⟩
  | 102 => ⟨S100000x100, .f32⟩
  | 103 => ⟨S800000x1, .i32⟩
  | 104 => ⟨S100000x100, .f32⟩
  | 105 => ⟨S100000x100, .f32⟩
  | 106 => ⟨S100000x100, .f32⟩
  | 107 => ⟨S100x100, .f32⟩
  | 108 => ⟨S100000x100, .f32⟩
  | 109 => ⟨S1x100, .f32⟩
  | 110 => ⟨S100000x100, .f32⟩
  | 111 => ⟨S100000x100, .f32⟩
  | 112 => ⟨S_, .f32⟩
  | 113 => ⟨S100000x100, .f32⟩
  | 114 => ⟨S100000x100, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x100, .f32⟩
  | 124 => ⟨S800000x100, .f32⟩
  | 125 => ⟨S800000x100, .f32⟩
  | 126 => ⟨S_, .f32⟩
  | 127 => ⟨S100000x100, .f32⟩
  | _ => ⟨S100000x100, .f32⟩

abbrev hbmTy0_1 (i : Nat) : BufTy := match i % 128 with
  | 0 => ⟨S800000x1, .i32⟩
  | 1 => ⟨S100000x100, .f32⟩
  | 2 => ⟨S100000x100, .f32⟩
  | 3 => ⟨S100000x100, .f32⟩
  | 4 => ⟨S100x100, .f32⟩
  | 5 => ⟨S100000x100, .f32⟩
  | 6 => ⟨S1x100, .f32⟩
  | 7 => ⟨S100000x100, .f32⟩
  | 8 => ⟨S100000x100, .f32⟩
  | 9 => ⟨S_, .f32⟩
  | 10 => ⟨S100000x100, .f32⟩
  | 11 => ⟨S100000x100, .f32⟩
  | 12 => ⟨S100x50, .f32⟩
  | 13 => ⟨S100000x50, .f32⟩
  | 14 => ⟨S1x50, .f32⟩
  | 15 => ⟨S100000x50, .f32⟩
  | 16 => ⟨S100000x50, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_c_4 : Ref sig .tc := ⟨.hbm, 32, rfl⟩
abbrev main_v15 : Ref sig .tc := ⟨.hbm, 33, rfl⟩
abbrev main_v16 : Ref sig .tc := ⟨.hbm, 34, rfl⟩
abbrev main_c_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_c_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_v32 : Ref sig .tc := ⟨.hbm, 58, rfl⟩
abbrev main_c_11 : Ref sig .tc := ⟨.hbm, 59, rfl⟩
abbrev main_v33 : Ref sig .tc := ⟨.hbm, 60, rfl⟩
abbrev main_v34 : Ref sig .tc := ⟨.hbm, 61, rfl⟩
abbrev main_c_12 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩
abbrev main_v47 : Ref sig .tc := ⟨.hbm, 78, rfl⟩
abbrev main_cst_15 : Ref sig .tc := ⟨.hbm, 79, rfl⟩
abbrev main_v48 : Ref sig .tc := ⟨.hbm, 80, rfl⟩
abbrev main_v49 : Ref sig .tc := ⟨.hbm, 81, rfl⟩
abbrev main_cst_16 : Ref sig .tc := ⟨.hbm, 82, rfl⟩
abbrev main_v50 : Ref sig .tc := ⟨.hbm, 83, rfl⟩
abbrev main_v51 : Ref sig .tc := ⟨.hbm, 84, rfl⟩
abbrev main_cst_17 : Ref sig .tc := ⟨.hbm, 85, rfl⟩
abbrev main_call3_v0 : Ref sig .tc := ⟨.hbm, 86, rfl⟩
abbrev main_call3_v1 : Ref sig .tc := ⟨.hbm, 87, rfl⟩
abbrev main_v52 : Ref sig .tc := ⟨.hbm, 88, rfl⟩
abbrev main_v53 : Ref sig .tc := ⟨.hbm, 89, rfl⟩
abbrev main_c_18 : Ref sig .tc := ⟨.hbm, 90, rfl⟩
abbrev main_v54 : Ref sig .tc := ⟨.hbm, 91, rfl⟩
abbrev main_v55 : Ref sig .tc := ⟨.hbm, 92, rfl⟩
abbrev main_c_19 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_20 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_call4_cst : Ref sig .tc := ⟨.hbm, 112, rfl⟩
abbrev main_call4_v0 : Ref sig .tc := ⟨.hbm, 113, rfl⟩
abbrev main_v73 : Ref sig .tc := ⟨.hbm, 114, rfl⟩
abbrev main_c_21 : Ref sig .tc := ⟨.hbm, 115, rfl⟩
abbrev main_v74 : Ref sig .tc := ⟨.hbm, 116, rfl⟩
abbrev main_v75 : Ref sig .tc := ⟨.hbm, 117, rfl⟩
abbrev main_c_22 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_23 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_call5_cst : Ref sig .tc := ⟨.hbm, 137, rfl⟩
abbrev main_call5_v0 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S800000x1_S800000x100_0_1 : S800000x1.BroadcastsInDim S800000x100 (![0, 1] : Fin 2 → Fin S800000x100.rank)
  bcast_S_S100000x100 : S_.BroadcastsInDim S100000x100 (![] : Fin 0 → Fin S100000x100.rank)
  bcast_S100000x1_S100000x100_0_1 : S100000x1.BroadcastsInDim S100000x100 (![0, 1] : Fin 2 → Fin S100000x100.rank)
  transposes_S100x100_S100x100_1_0 : S100x100.Transposes [1, 0] S100x100
  bcast_S100_S1x100_1 : S100.BroadcastsInDim S1x100 (![1] : Fin 1 → Fin S1x100.rank)
  bcast_S1x100_S100000x100_0_1 : S1x100.BroadcastsInDim S100000x100 (![0, 1] : Fin 2 → Fin S100000x100.rank)
  transposes_S50x100_S100x50_1_0 : S50x100.Transposes [1, 0] S100x50
  bcast_S50_S1x50_1 : S50.BroadcastsInDim S1x50 (![1] : Fin 1 → Fin S1x50.rank)
  bcast_S1x50_S100000x50_0_1 : S1x50.BroadcastsInDim S100000x50 (![0, 1] : Fin 2 → Fin S100000x50.rank)
  gather_S100000_S800000x1_S800000_n_0_n_n_0_1_1_wf : GatherDims.WF S100000 S800000x1 S800000 [] [0] [] [0] [] 1 ![1]
  gather_S20002x1_S800000x1_S800000x1_1_0_n_n_0_1_11_wf : GatherDims.WF S20002x1 S800000x1 S800000x1 [1] [0] [] [0] [] 1 ![1, 1]
  scatter_S100000_S800000x1_S800000_n_0_0_1_wf : ScatterDims.WF S100000 S800000x1 S800000 [] [0] [0] 1
  gather_S100000x100_S800000x1_S800000x100_1_0_n_n_0_1_1100_wf : GatherDims.WF S100000x100 S800000x1 S800000x100 [1] [0] [] [0] [] 1 ![1, 100]
  scatter_S100000x100_S800000x1_S800000x100_1_0_0_1_wf : ScatterDims.WF S100000x100 S800000x1 S800000x100 [1] [0] [0] 1
  dot_S100000x100_S100x100_S100000x100_1_0_0_1_n_n_wf : DotDims.WF S100000x100 S100x100 S100000x100 [1] [0] [0] [1] [] []
  dot_S100000x100_S100x50_S100000x50_1_0_0_1_n_n_wf : DotDims.WF S100000x100 S100x50 S100000x50 [1] [0] [0] [1] [] []

variable [Facts₀]

def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S20002x1_S800000x1_S800000x1_1_0_n_n_0_1_11 : GatherDims S20002x1 S800000x1 S800000x1 where
  offsetDims := [1]
  collapsedSliceDims := [0]
  operandBatchingDims := []
  startIndicesBatchingDims := []
  startIndexMap := [0]
  indexVectorDim := 1
  sliceSizes := ![1, 1]
  wf := gather_S20002x1_S800000x1_S800000x1_1_0_n_n_0_1_11_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x100_S800000x1_S800000x100_1_0_n_n_0_1_1100 : GatherDims S100000x100 S800000x1 S800000x100 where
  offsetDims := [1]
  collapsedSliceDims := [0]
  operandBatchingDims := []
  startIndicesBatchingDims := []
  startIndexMap := [0]
  indexVectorDim := 1
  sliceSizes := ![1, 100]
  wf := gather_S100000x100_S800000x1_S800000x100_1_0_n_n_0_1_1100_wf
def scatter_S100000x100_S800000x1_S800000x100_1_0_0_1 : ScatterDims S100000x100 S800000x1 S800000x100 where
  updateWindowDims := [1]
  insertedWindowDims := [0]
  scatterDimsToOperandDims := [0]
  indexVectorDim := 1
  wf := scatter_S100000x100_S800000x1_S800000x100_1_0_0_1_wf
def dot_S100000x100_S100x100_S100000x100_1_0_0_1_n_n : DotDims S100000x100 S100x100 S100000x100 where
  lhsContracting := [1]
  rhsContracting := [0]
  lhsNonContracting := [0]
  rhsNonContracting := [1]
  lhsBatch := []
  rhsBatch := []
  wf := dot_S100000x100_S100x100_S100000x100_1_0_0_1_n_n_wf
def dot_S100000x100_S100x50_S100000x50_1_0_0_1_n_n : DotDims S100000x100 S100x50 S100000x50 where
  lhsContracting := [1]
  rhsContracting := [0]
  lhsNonContracting := [0]
  rhsNonContracting := [1]
  lhsBatch := []
  rhsBatch := []
  wf := dot_S100000x100_S100x50_S100000x50_1_0_0_1_n_n_wf

class Facts : Prop extends Facts₀ where

variable [Facts]
-- ==== Proof.KernelHost.lean ====
/-
  The host operations of the kernel's program, between the launch and the regions, read as the reference's stages.

  Outside its three regions the kernel's @main applies, to the launch contents, the same host operations as the
  reference, literal for literal: the per-edge scale (a gather of the node ids at both ends of an edge, three
  selections of an index into `alpha`, the gathered `alpha` entry times the edge weight), the inverse in-degree of a
  node, and the aggregate of a layer's input (its rows gathered at the edges' sources, scaled, scatter-added at the
  edges' targets, times the inverse in-degree). So the buffer contents the frame's fold names at a boundary are the
  reference's own stage functions of the launch arrays. The reference's aggregate stage, as a function of its first
  argument, IS the aggregate: its second use, on the first hidden layer's output, is the same function at another input.
  Nothing here opens a gather or a scatter-add: both sides carry them as the same uninterpreted operations. Stated for
  every float family.
-/
import proofs.«181602_j65712999629491_1_alg».proof.Proof.Gen.KernelIdeal.Frame
import proofs.«181602_j65712999629491_1_alg».proof.Proof.RefRead

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read (val_main_v41 val_main_v53 val_main_v67)

variable {F : FTy → Type} [FloatOps F]
variable (m : (ℓ : Loc nD τ sig) → Buf (Elt F) ℓ) (ρ : Dev nD → PrngReg) (c : Dev nD)

/-! ## Before the first region -/

/-- The per-edge scale `alpha[idx] · edge_weight` at the first region's entry. -/
theorem scale_at_entry0 : W9 m ρ c (Proc.devRef .tc main_v41)
    = val_main_v41 (F := F) (m ((c : Thread nD τ).loc main_arg1)) (m ((c : Thread nD τ).loc main_arg2)) (m ((c : Thread nD τ).loc main_arg3))
        (m ((c : Thread nD τ).loc main_arg4)) (m ((c : Thread nD τ).loc main_arg5)) := by
  dsimp only [W9, W8, W7, W6, W5, W4, W3, W2, W1]
  simp only [hostOps0, hostOps0_1, hostOps0_2, hostOps0_3, hostOps0_4, hostOps0_5, hostOps0_6, hostOps0_7, hostOps0_8]
  after_results_simp
  rfl

/-- The inverse in-degree `where(deg > 0, 1 / max(deg, 1), 0)` at the first region's entry. -/
theorem invdeg_at_entry0 : W9 m ρ c (Proc.devRef .tc main_v53) = val_main_v53 (F := F) (m ((c : Thread nD τ).loc main_arg3)) := by
  dsimp only [W9, W8, W7, W6, W5, W4, W3, W2, W1]
  simp only [hostOps0, hostOps0_1, hostOps0_2, hostOps0_3, hostOps0_4, hostOps0_5, hostOps0_6, hostOps0_7, hostOps0_8]
  after_results_simp
  rfl

set_option maxHeartbeats 4000000 in
/-- The first region's input: the aggregate of the features. -/
theorem input_at_entry0 : W9 m ρ c (Proc.devRef .tc main_v67)
    = val_main_v67 (F := F) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W9, W8, W7, W6, W5, W4, W3, W2, W1]
  simp only [hostOps0, hostOps0_1, hostOps0_2, hostOps0_3, hostOps0_4, hostOps0_5, hostOps0_6, hostOps0_7, hostOps0_8]
  after_results_simp
  rfl

/-- No host operation before the first region writes the edges' sources. -/
theorem arg2_at_entry0 : W9 m ρ c (Proc.devRef .tc main_arg2) = m ((c : Thread nD τ).loc main_arg2) := by
  dsimp only [W9, W8, W7, W6, W5, W4, W3, W2, W1]
  simp only [hostOps0, hostOps0_1, hostOps0_2, hostOps0_3, hostOps0_4, hostOps0_5, hostOps0_6, hostOps0_7, hostOps0_8]
  after_results_simp

/-- Nor the edges' targets. -/
theorem arg3_at_entry0 : W9 m ρ c (Proc.devRef .tc main_arg3) = m ((c : Thread nD τ).loc main_arg3) := by
  dsimp only [W9, W8, W7, W6, W5, W4, W3, W2, W1]
  simp only [hostOps0, hostOps0_1, hostOps0_2, hostOps0_3, hostOps0_4, hostOps0_5, hostOps0_6, hostOps0_7, hostOps0_8]
  after_results_simp

/-- Nor the first layer's weights. -/
theorem arg6_at_entry0 : W9 m ρ c (Proc.devRef .tc main_arg6) = m ((c : Thread nD τ).loc main_arg6) := by
  dsimp only [W9, W8, W7, W6, W5, W4, W3, W2, W1]
  simp only [hostOps0, hostOps0_1, hostOps0_2, hostOps0_3, hostOps0_4, hostOps0_5, hostOps0_6, hostOps0_7, hostOps0_8]
  after_results_simp

/-- Nor the first layer's bias. -/
theorem arg7_at_entry0 : W9 m ρ c (Proc.devRef .tc main_arg7) = m ((c : Thread nD τ).loc main_arg7) := by
  dsimp only [W9, W8, W7, W6, W5, W4, W3, W2, W1]
  simp only [hostOps0, hostOps0_1, hostOps0_2, hostOps0_3, hostOps0_4, hostOps0_5, hostOps0_6, hostOps0_7, hostOps0_8]
  after_results_simp

/-! ## Between the first and the second region

The first region writes only its output array: the scale, the inverse in-degree and the arguments are as they were at its entry. -/

theorem scale_at_exit0 : W10 m ρ c (Proc.devRef .tc main_v41)
    = val_main_v41 (F := F) (m ((c : Thread nD τ).loc main_arg1)) (m ((c : Thread nD τ).loc main_arg2)) (m ((c : Thread nD τ).loc main_arg3)) (m ((c : Thread nD τ).loc main_arg4)) (m ((c : Thread nD τ).loc main_arg5)) :=
  (W10_of_ne m ρ c main_v41 (by decide)).trans (scale_at_entry0 m ρ c)
theorem invdeg_at_exit0 : W10 m ρ c (Proc.devRef .tc main_v53) = val_main_v53 (F := F) (m ((c : Thread nD τ).loc main_arg3)) :=
  (W10_of_ne m ρ c main_v53 (by decide)).trans (invdeg_at_entry0 m ρ c)
theorem arg2_at_exit0 : W10 m ρ c (Proc.devRef .tc main_arg2) = m ((c : Thread nD τ).loc main_arg2) :=
  (W10_of_ne m ρ c main_arg2 (by decide)).trans (arg2_at_entry0 m ρ c)
theorem arg3_at_exit0 : W10 m ρ c (Proc.devRef .tc main_arg3) = m ((c : Thread nD τ).loc main_arg3) :=
  (W10_of_ne m ρ c main_arg3 (by decide)).trans (arg3_at_entry0 m ρ c)

/-- THE SECOND REGION'S INPUT is the aggregate of the first region's output: the host operations between the two regions
    are the aggregate's, applied to what the first region left in its output array, with the scale and the inverse
    in-degree computed before the first region. -/
theorem input_at_entry1 : W11 m ρ c (Proc.devRef .tc main_v82)
    = val_main_v67 (F := F) (W10 m ρ c (Proc.devRef .tc main_v68)) (m ((c : Thread nD τ).loc main_arg1)) (m ((c : Thread nD τ).loc main_arg2)) (m ((c : Thread nD τ).loc main_arg3)) (m ((c : Thread nD τ).loc main_arg4)) (m ((c : Thread nD τ).loc main_arg5)) := by
  dsimp only [W11]
  simp only [hostOps1]
  after_results_simp
  rw [scale_at_exit0 m ρ c, invdeg_at_exit0 m ρ c, arg2_at_exit0 m ρ c, arg3_at_exit0 m ρ c]
  rfl

/-! ## The later regions' weights and biases

No host operation and no region writes an argument: the generated frame walks each one from the last boundary back to
the launch. A region that reads an argument through an input window leaves that array as it found it, and the regions
after it do not touch it. -/

theorem arg8_at_entry1 : W11 m ρ c (Proc.devRef .tc main_arg8) = m ((c : Thread nD τ).loc main_arg8) :=
  ((W12_arr m ρ c 1).trans (((dat1 (V11 m ρ) c).arrAt_in 1 rfl _).trans (A_eq1 (V11 m ρ) c 1))).symm.trans
    ((W13_of_ne m ρ c main_arg8 (by decide)).symm.trans (W13_main_arg8 m ρ c))
theorem arg9_at_entry1 : W11 m ρ c (Proc.devRef .tc main_arg9) = m ((c : Thread nD τ).loc main_arg9) :=
  ((W12_arr m ρ c 2).trans (((dat1 (V11 m ρ) c).arrAt_in 2 rfl _).trans (A_eq1 (V11 m ρ) c 2))).symm.trans
    ((W13_of_ne m ρ c main_arg9 (by decide)).symm.trans (W13_main_arg9 m ρ c))
theorem arg10_at_entry2 : W12 m ρ c (Proc.devRef .tc main_arg10) = m ((c : Thread nD τ).loc main_arg10) :=
  ((W13_arr m ρ c 1).trans (((dat2 (V12 m ρ) c).arrAt_in 1 rfl _).trans (A_eq2 (V12 m ρ) c 1))).symm.trans (W13_main_arg10 m ρ c)
theorem arg11_at_entry2 : W12 m ρ c (Proc.devRef .tc main_arg11) = m ((c : Thread nD τ).loc main_arg11) :=
  ((W13_arr m ρ c 2).trans (((dat2 (V12 m ρ) c).arrAt_in 2 rfl _).trans (A_eq2 (V12 m ρ) c 2))).symm.trans (W13_main_arg11 m ρ c)

end Cert.KernelIdeal.Host

end
-- ==== Proof.LayerSpec.lean ====
/-
  The dense layer both programs compute, stated once over the extended reals.

  For an input `X : [M, K]`, weights `W : [N, K]` and a bias `b : [N]` the layer's entry `(p, q)` is
  `∑ k, X (p, k) · W (q, k) + b q`: row `p` of the input against row `q` of the weights (the product with the
  transposed weight matrix), plus the bias entry of the output column. The hidden layers take the maximum of that
  entry and zero; the last layer does not.

  Nothing here depends on the order of the sum's terms, and no law beyond the definition of a finite sum is used: the
  entry is one sum on the extended reals, and the two programs are compared term by term against it.
-/
import Idealize.ShloMosaic.PureOps.Ideal
import Idealize.ShloMosaic.PureOps.Ideal.Laws
import Idealize.ShloMosaic.Lib.ValueIdx

noncomputable section

open scoped BigOperators

namespace Cert.Dense

open Idealize.ShloMosaic Idealize.ShloMosaic.ValueIdx

/-- One entry of a dense layer: a row `x` of the input against a row `w` of the weights, plus the bias entry `b`. -/
def affine {K : Nat} (x w : Fin K → EReal) (b : EReal) : EReal := (∑ k : Fin K, x k * w k) + b

/-- The zero the hidden layers clip at: the all-zero `f32` word read as an extended real. It is never evaluated:
    both programs carry the same word. -/
abbrev zero : EReal := Ideal.ofBits .f32 0x00000000#32

/-- `X · Wᵀ + b`: entry `(p, q)` is row `p` of `X` against row `q` of `W`, plus `b q`. -/
def linear {M N K : Nat} (X : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  fun i => affine (fun k => X (ix2 (⟨(i 0).val, idx2_lt0 i⟩ : Fin M) k)) (fun k => W (ix2 (⟨(i 1).val, idx2_lt1 i⟩ : Fin N) k))
    (b (ix1 (⟨(i 1).val, idx2_lt1 i⟩ : Fin N)))

/-- The hidden layer: `max (X · Wᵀ + b) 0`, entry by entry. -/
def linearRelu {M N K : Nat} (X : (⟨2, ![M, K]⟩ : Shape).Idx → EReal) (W : (⟨2, ![N, K]⟩ : Shape).Idx → EReal)
    (b : (⟨1, ![N]⟩ : Shape).Idx → EReal) : (⟨2, ![M, N]⟩ : Shape).Idx → EReal :=
  fun i => max (linear X W b i) zero

/-- The layer at explicit coordinates. -/
theorem linear_ix2 {M N K : Nat} (X : (⟨2, ![M, K]⟩ : Shape).Idx → EReal) (W : (⟨2, ![N, K]⟩ : Shape).Idx → EReal)
    (b : (⟨1, ![N]⟩ : Shape).Idx → EReal) (p : Fin M) (q : Fin N) :
    linear X W b (ix2 p q) = affine (fun k => X (ix2 p k)) (fun k => W (ix2 q k)) (b (ix1 q)) := rfl

/-- The hidden layer at explicit coordinates. -/
theorem linearRelu_ix2 {M N K : Nat} (X : (⟨2, ![M, K]⟩ : Shape).Idx → EReal) (W : (⟨2, ![N, K]⟩ : Shape).Idx → EReal)
    (b : (⟨1, ![N]⟩ : Shape).Idx → EReal) (p : Fin M) (q : Fin N) :
    linearRelu X W b (ix2 p q) = max (affine (fun k => X (ix2 p k)) (fun k => W (ix2 q k)) (b (ix1 q))) zero := rfl

/-- A layer's entry reads only row `p` of its input: two inputs that agree on that row give the same entry. This is
    what lets a block of rows of the output be computed from the same block of rows of the input. -/
theorem linear_congr_row {M M' N K : Nat} (X : (⟨2, ![M, K]⟩ : Shape).Idx → EReal) (X' : (⟨2, ![M', K]⟩ : Shape).Idx → EReal)
    (W : (⟨2, ![N, K]⟩ : Shape).Idx → EReal) (b : (⟨1, ![N]⟩ : Shape).Idx → EReal) (p : Fin M) (p' : Fin M') (q : Fin N)
    (h : ∀ k : Fin K, X (ix2 p k) = X' (ix2 p' k)) :
    linear X W b (ix2 p q) = linear X' W b (ix2 p' q) := by
  rw [linear_ix2, linear_ix2]
  exact congrArg (fun f => affine f (fun k => W (ix2 q k)) (b (ix1 q))) (funext h)

/-- A BLOCK'S ENTRY IS THE ARRAY'S. If a block of rows `x` of the input, and the weights `w` and bias `b` as a
    grid point holds them, read at the block's entry `(p, q)` what the whole arrays `X`, `W`, `B` hold at the
    array's entry `i` — row `p` of the block is row `i 0` of `X`, row `q` of `w` is row `i 1` of `W`, and
    `b q` is `B (i 1)` —, then the block's dense-layer entry is the array's. -/
theorem linear_of_block {M N K MB : Nat} (X : (⟨2, ![M, K]⟩ : Shape).Idx → EReal) (W : (⟨2, ![N, K]⟩ : Shape).Idx → EReal)
    (B : (⟨1, ![N]⟩ : Shape).Idx → EReal) (x : (⟨2, ![MB, K]⟩ : Shape).Idx → EReal) (w : (⟨2, ![N, K]⟩ : Shape).Idx → EReal)
    (b : (⟨1, ![N]⟩ : Shape).Idx → EReal) (p : Fin MB) (q : Fin N) (i : (⟨2, ![M, N]⟩ : Shape).Idx)
    (hx : ∀ k : Fin K, x (ix2 p k) = X (ix2 (⟨(i 0).val, idx2_lt0 i⟩ : Fin M) k))
    (hw : ∀ k : Fin K, w (ix2 q k) = W (ix2 (⟨(i 1).val, idx2_lt1 i⟩ : Fin N) k))
    (hb : b (ix1 q) = B (ix1 (⟨(i 1).val, idx2_lt1 i⟩ : Fin N))) :
    affine (fun k => x (ix2 p k)) (fun k => w (ix2 q k)) (b (ix1 q)) = linear X W B i := by
  unfold linear
  rw [show (fun k => x (ix2 p k)) = fun k => X (ix2 (⟨(i 0).val, idx2_lt0 i⟩ : Fin M) k) from funext hx,
    show (fun k => w (ix2 q k)) = fun k => W (ix2 (⟨(i 1).val, idx2_lt1 i⟩ : Fin N) k) from funext hw, hb]

/-- The same for a hidden layer: the clipping is entry by entry. -/
theorem linearRelu_of_block {M N K MB : Nat} (X : (⟨2, ![M, K]⟩ : Shape).Idx → EReal) (W : (⟨2, ![N, K]⟩ : Shape).Idx → EReal)
    (B : (⟨1, ![N]⟩ : Shape).Idx → EReal) (x : (⟨2, ![MB, K]⟩ : Shape).Idx → EReal) (w : (⟨2, ![N, K]⟩ : Shape).Idx → EReal)
    (b : (⟨1, ![N]⟩ : Shape).Idx → EReal) (p : Fin MB) (q : Fin N) (i : (⟨2, ![M, N]⟩ : Shape).Idx)
    (hx : ∀ k : Fin K, x (ix2 p k) = X (ix2 (⟨(i 0).val, idx2_lt0 i⟩ : Fin M) k))
    (hw : ∀ k : Fin K, w (ix2 q k) = W (ix2 (⟨(i 1).val, idx2_lt1 i⟩ : Fin N) k))
    (hb : b (ix1 q) = B (ix1 (⟨(i 1).val, idx2_lt1 i⟩ : Fin N))) :
    max (affine (fun k => x (ix2 p k)) (fun k => w (ix2 q k)) (b (ix1 q))) zero = linearRelu X W B i := by
  unfold linearRelu
  rw [linear_of_block X W B x w b p q i hx hw hb]

end Cert.Dense

end
-- ==== Proof.KernelPay.lean ====
/-
  What one grid point's body stores, entry by entry, at the extended reals.

  The body loads a block `x : [10000, 100]` of the layer's input, the whole weight matrix `w : [N, 100]` and the
  whole bias `b : [N]`, and stores `max (x · wᵀ + b) 0` (the hidden layers) or `x · wᵀ + b` (the last layer).
  Read at the entry `(p, q)`: the narrowing of both operands to bf16 is the identity on the extended reals; the
  product into the zero accumulator is the plain sum over the contracted coordinate of `x (p, k) · w (q, k)` — both
  operands are contracted on their second axis, so the weights enter transposed —; the bias, cast to one row and
  broadcast over the rows, contributes `b q`; and the hidden layers clip at the zero word. That is the dense-layer
  entry `Cert.Dense.affine` of row `p` of the block, under a maximum for the hidden layers.
-/
import proofs.«181602_j65712999629491_1_alg».proof.Proof.Gen.KernelIdeal.Skeleton
import proofs.«181602_j65712999629491_1_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The contraction of the H: axis 1 of the input block against axis 1 of the weights -/

/-- The input's row coordinate is the output's row. -/
theorem lhsH_0 (i : S10000x100.Idx) (q : dot_S10000x100_S100x100_S10000x100_1_1_0_0_n_n.contr.Idx) :
    (dot_S10000x100_S100x100_S10000x100_1_1_0_0_n_n.lhsIdx i q 0).val = (i 0).val := by
  unfold DotDims.lhsIdx
  rw [dif_neg (show ¬(0 : Fin S10000x100.rank) ∈ dot_S10000x100_S100x100_S10000x100_1_1_0_0_n_n.lhsBatch by decide), dif_pos (show (0 : Fin S10000x100.rank) ∈ dot_S10000x100_S100x100_S10000x100_1_1_0_0_n_n.lhsNonContracting by decide)]
  rfl
/-- The input's column coordinate is the contracted coordinate. -/
theorem lhsH_1 (i : S10000x100.Idx) (q : dot_S10000x100_S100x100_S10000x100_1_1_0_0_n_n.contr.Idx) :
    (dot_S10000x100_S100x100_S10000x100_1_1_0_0_n_n.lhsIdx i q 1).val = (q ⟨0, by decide⟩).val :=
  dot_S10000x100_S100x100_S10000x100_1_1_0_0_n_n.lhsIdx_val_of_single rfl i q
/-- The weights' row coordinate is the output's column. -/
theorem rhsH_0 (i : S10000x100.Idx) (q : dot_S10000x100_S100x100_S10000x100_1_1_0_0_n_n.contr.Idx) :
    (dot_S10000x100_S100x100_S10000x100_1_1_0_0_n_n.rhsIdx i q 0).val = (i 1).val := by
  unfold DotDims.rhsIdx
  rw [dif_neg (show ¬(0 : Fin S100x100.rank) ∈ dot_S10000x100_S100x100_S10000x100_1_1_0_0_n_n.rhsBatch by decide), dif_pos (show (0 : Fin S100x100.rank) ∈ dot_S10000x100_S100x100_S10000x100_1_1_0_0_n_n.rhsNonContracting by decide)]
  rfl
/-- The weights' column coordinate is the contracted coordinate. -/
theorem rhsH_1 (i : S10000x100.Idx) (q : dot_S10000x100_S100x100_S10000x100_1_1_0_0_n_n.contr.Idx) :
    (dot_S10000x100_S100x100_S10000x100_1_1_0_0_n_n.rhsIdx i q 1).val = (q ⟨0, by decide⟩).val :=
  dot_S10000x100_S100x100_S10000x100_1_1_0_0_n_n.rhsIdx_val_of_single rfl i q

/-- The contraction at the output entry `(p, q)`, re-indexed by its one contracted coordinate: row `p` of the input
    against row `q` of the weights. -/
theorem sumH (x : S10000x100.Idx → EReal) (w : S100x100.Idx → EReal) (p : Fin 10000) (q : Fin 100) :
    ∑ k : dot_S10000x100_S100x100_S10000x100_1_1_0_0_n_n.contr.Idx, x (dot_S10000x100_S100x100_S10000x100_1_1_0_0_n_n.lhsIdx (ix2 p q) k) * w (dot_S10000x100_S100x100_S10000x100_1_1_0_0_n_n.rhsIdx (ix2 p q) k)
      = ∑ k : Fin 100, x (ix2 p k) * w (ix2 q k) := by
  rw [← Equiv.sum_comp (contrEquiv1 dot_S10000x100_S100x100_S10000x100_1_1_0_0_n_n 100 rfl rfl).symm]
  refine Finset.sum_congr rfl fun k _ => ?_
  have hk := contrEquiv1_symm_val dot_S10000x100_S100x100_S10000x100_1_1_0_0_n_n 100 rfl rfl k
  have el : dot_S10000x100_S100x100_S10000x100_1_1_0_0_n_n.lhsIdx (ix2 p q) ((contrEquiv1 dot_S10000x100_S100x100_S10000x100_1_1_0_0_n_n 100 rfl rfl).symm k) = ix2 p k := funext fun a => Fin.ext (by
    match a with
    | ⟨0, _⟩ => exact lhsH_0 _ _
    | ⟨1, _⟩ => exact (lhsH_1 _ _).trans hk)
  have er : dot_S10000x100_S100x100_S10000x100_1_1_0_0_n_n.rhsIdx (ix2 p q) ((contrEquiv1 dot_S10000x100_S100x100_S10000x100_1_1_0_0_n_n 100 rfl rfl).symm k) = ix2 q k := funext fun a => Fin.ext (by
    match a with
    | ⟨0, _⟩ => exact rhsH_0 _ _
    | ⟨1, _⟩ => exact (rhsH_1 _ _).trans hk)
  rw [el, er]

/-! ## The contraction of the O: axis 1 of the input block against axis 1 of the weights -/

/-- The input's row coordinate is the output's row. -/
theorem lhsO_0 (i : S10000x50.Idx) (q : dot_S10000x100_S50x100_S10000x50_1_1_0_0_n_n.contr.Idx) :
    (dot_S10000x100_S50x100_S10000x50_1_1_0_0_n_n.lhsIdx i q 0).val = (i 0).val := by
  unfold DotDims.lhsIdx
  rw [dif_neg (show ¬(0 : Fin S10000x100.rank) ∈ dot_S10000x100_S50x100_S10000x50_1_1_0_0_n_n.lhsBatch by decide), dif_pos (show (0 : Fin S10000x100.rank) ∈ dot_S10000x100_S50x100_S10000x50_1_1_0_0_n_n.lhsNonContracting by decide)]
  rfl
/-- The input's column coordinate is the contracted coordinate. -/
theorem lhsO_1 (i : S10000x50.Idx) (q : dot_S10000x100_S50x100_S10000x50_1_1_0_0_n_n.contr.Idx) :
    (dot_S10000x100_S50x100_S10000x50_1_1_0_0_n_n.lhsIdx i q 1).val = (q ⟨0, by decide⟩).val :=
  dot_S10000x100_S50x100_S10000x50_1_1_0_0_n_n.lhsIdx_val_of_single rfl i q
/-- The weights' row coordinate is the output's column. -/
theorem rhsO_0 (i : S10000x50.Idx) (q : dot_S10000x100_S50x100_S10000x50_1_1_0_0_n_n.contr.Idx) :
    (dot_S10000x100_S50x100_S10000x50_1_1_0_0_n_n.rhsIdx i q 0).val = (i 1).val := by
  unfold DotDims.rhsIdx
  rw [dif_neg (show ¬(0 : Fin S50x100.rank) ∈ dot_S10000x100_S50x100_S10000x50_1_1_0_0_n_n.rhsBatch by decide), dif_pos (show (0 : Fin S50x100.rank) ∈ dot_S10000x100_S50x100_S10000x50_1_1_0_0_n_n.rhsNonContracting by decide)]
  rfl
/-- The weights' column coordinate is the contracted coordinate. -/
theorem rhsO_1 (i : S10000x50.Idx) (q : dot_S10000x100_S50x100_S10000x50_1_1_0_0_n_n.contr.Idx) :
    (dot_S10000x100_S50x100_S10000x50_1_1_0_0_n_n.rhsIdx i q 1).val = (q ⟨0, by decide⟩).val :=
  dot_S10000x100_S50x100_S10000x50_1_1_0_0_n_n.rhsIdx_val_of_single rfl i q

/-- The contraction at the output entry `(p, q)`, re-indexed by its one contracted coordinate: row `p` of the input
    against row `q` of the weights. -/
theorem sumO (x : S10000x100.Idx → EReal) (w : S50x100.Idx → EReal) (p : Fin 10000) (q : Fin 50) :
    ∑ k : dot_S10000x100_S50x100_S10000x50_1_1_0_0_n_n.contr.Idx, x (dot_S10000x100_S50x100_S10000x50_1_1_0_0_n_n.lhsIdx (ix2 p q) k) * w (dot_S10000x100_S50x100_S10000x50_1_1_0_0_n_n.rhsIdx (ix2 p q) k)
      = ∑ k : Fin 100, x (ix2 p k) * w (ix2 q k) := by
  rw [← Equiv.sum_comp (contrEquiv1 dot_S10000x100_S50x100_S10000x50_1_1_0_0_n_n 100 rfl rfl).symm]
  refine Finset.sum_congr rfl fun k _ => ?_
  have hk := contrEquiv1_symm_val dot_S10000x100_S50x100_S10000x50_1_1_0_0_n_n 100 rfl rfl k
  have el : dot_S10000x100_S50x100_S10000x50_1_1_0_0_n_n.lhsIdx (ix2 p q) ((contrEquiv1 dot_S10000x100_S50x100_S10000x50_1_1_0_0_n_n 100 rfl rfl).symm k) = ix2 p k := funext fun a => Fin.ext (by
    match a with
    | ⟨0, _⟩ => exact lhsO_0 _ _
    | ⟨1, _⟩ => exact (lhsO_1 _ _).trans hk)
  have er : dot_S10000x100_S50x100_S10000x50_1_1_0_0_n_n.rhsIdx (ix2 p q) ((contrEquiv1 dot_S10000x100_S50x100_S10000x50_1_1_0_0_n_n 100 rfl rfl).symm k) = ix2 q k := funext fun a => Fin.ext (by
    match a with
    | ⟨0, _⟩ => exact rhsO_0 _ _
    | ⟨1, _⟩ => exact (rhsO_1 _ _).trans hk)
  rw [el, er]

/-! ## The payloads at an entry -/

/-- The first hidden layer's stored value at `(p, q)`. -/
theorem pay0_apply (x : Vec Ideal S10000x100 .f32) (w : Vec Ideal S100x100 .f32) (b : Vec Ideal S100 .f32) (p : Fin 10000) (q : Fin 100) :
    k0_pay1 (F := Ideal) x w b (ix2 p q)
      = max (Cert.Dense.affine (fun k => x (ix2 p k)) (fun k => w (ix2 q k)) (b (ix1 q))) Cert.Dense.zero := by
  unfold k0_pay1 Cert.Dense.affine
  simp only [maximumf_apply, addf_apply, broadcast_apply, matmul, Ideal.matmul_constant_zero_apply, truncf_apply,
    shapeCast_self, broadcastTo_1b_ab_apply, shapeCast_a_1a_apply, sumH]
  rfl

/-- The second hidden layer's stored value at `(p, q)`: the same body. -/
theorem pay1_apply (x : Vec Ideal S10000x100 .f32) (w : Vec Ideal S100x100 .f32) (b : Vec Ideal S100 .f32) (p : Fin 10000) (q : Fin 100) :
    k1_pay1 (F := Ideal) x w b (ix2 p q)
      = max (Cert.Dense.affine (fun k => x (ix2 p k)) (fun k => w (ix2 q k)) (b (ix1 q))) Cert.Dense.zero := by
  unfold k1_pay1 Cert.Dense.affine
  simp only [maximumf_apply, addf_apply, broadcast_apply, matmul, Ideal.matmul_constant_zero_apply, truncf_apply,
    shapeCast_self, broadcastTo_1b_ab_apply, shapeCast_a_1a_apply, sumH]
  rfl

/-- The last layer's stored value at `(p, q)`: no clipping. -/
theorem pay2_apply (x : Vec Ideal S10000x100 .f32) (w : Vec Ideal S50x100 .f32) (b : Vec Ideal S50 .f32) (p : Fin 10000) (q : Fin 50) :
    k2_pay1 (F := Ideal) x w b (ix2 p q)
      = Cert.Dense.affine (fun k => x (ix2 p k)) (fun k => w (ix2 q k)) (b (ix1 q)) := by
  unfold k2_pay1 Cert.Dense.affine
  simp only [addf_apply, matmul, Ideal.matmul_constant_zero_apply, truncf_apply,
    shapeCast_self, broadcastTo_1b_ab_apply, shapeCast_a_1a_apply, sumO]

end Cert.KernelIdeal.Pay

end
-- ==== Proof.KernelRegion0.lean ====
/-
  What the first kernel region (the first hidden layer) leaves in its output array.

  The region runs its body at ten grid points. Point `t` is handed rows `10000·t … 10000·t + 9999` of the layer's
  input, the whole weight matrix and the whole bias, and writes back rows `10000·t … 10000·t + 9999` of the output.
  The body's stored entry is a dense-layer entry of the block it was handed (the payload read at an index), a
  dense-layer entry reads one row of its input, and that row of the block is the same row of the input array: so point
  `t` writes back block `t` of ONE whole-array function, the dense layer of the three arrays as the region finds
  them. The ten blocks tile the output array, so the array ends holding that function.

  Everything is stated at a parameter `V`, the buffer contents when the region is entered.
-/
import proofs.«181602_j65712999629491_1_alg».proof.Proof.Gen.KernelIdeal.Frame
import proofs.«181602_j65712999629491_1_alg».proof.Proof.KernelPay
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offsets of a whole-buffer access, in the form the library's lemmas take them. -/
theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 0: `main_v68 = max (main_v67 · main_arg6ᵀ + main_arg7) 0` -/

/-- The printed index maps, decided over the ten grid points: the input's and the output's blocks move together down
    the rows (block `t` is rows `10000·t … 10000·t + 9999`), every other block index is zero. -/
theorem idx_facts0 : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every block of rows is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- WHAT POINT `t` WRITES BACK is block `t` of the dense layer of the three input arrays as the region finds them:
    the body's stored entry `(p, q)` is the layer's entry of row `p` of the input's block `t`, and that row is
    row `10000·t + p` of the input array. -/
theorem flushed0 (c : Dev nD) (t : Fin cfg0.N) :
    (dat0 (F := Ideal) V c).flushed 3 t
      = ((cfg0.win 3).blk t).view.read (Elt Ideal) (Cert.Dense.linearRelu (V c main_v67) (V c main_arg6) (V c main_arg7)) := by
  show (cfg0.win 3).cut (grid0.coords t) ((dat0 (F := Ideal) V c).after 3 t) = _
  rw [after0_3]
  unfold out0_3
  rw [View.canon_unit_zero hz2]
  simp only [View.ld_unit_zero (S := S10000x100) hz2, View.ld_unit_zero (S := S100x100) hz2, View.ld_unit_zero (S := S100) hz1]
  obtain ⟨e0, e1, e2, e3, e4, e5, e6⟩ := idx_facts0 t
  funext j
  obtain ⟨p, q, rfl⟩ : ∃ (p : Fin 10000) (q : Fin 100), j = ix2 p q := ⟨j 0, j 1, eq_ix2 j⟩
  show k0_pay1 (F := Ideal) (iblk0 V c 0 t) (iblk0 V c 1 t) (iblk0 V c 2 t) (ix2 p q)
    = Cert.Dense.linearRelu (V c main_v67) (V c main_arg6) (V c main_arg7) (((cfg0.win 3).blk t).view.emb (ix2 p q))
  refine (Pay.pay0_apply (iblk0 V c 0 t) (iblk0 V c 1 t) (iblk0 V c 2 t) p q).trans ?_
  refine Cert.Dense.linearRelu_of_block (V c main_v67) (V c main_arg6) (V c main_arg7) (iblk0 V c 0 t) (iblk0 V c 1 t) (iblk0 V c 2 t) p q
    (((cfg0.win 3).blk t).view.emb (ix2 p q)) ?_ ?_ ?_
  · intro k
    show V c main_v67 (((cfg0.win 0).blk t).view.emb (ix2 p k)) = _
    refine congrArg (V c main_v67) (funext fun a => Fin.ext ?_)
    match a with
    | ⟨0, _⟩ => show win0_0.index t (0 : Fin 2) * 10000 + 1 * p.val = win0_3.index t (0 : Fin 2) * 10000 + 1 * p.val; omega
    | ⟨1, _⟩ => show win0_0.index t (1 : Fin 2) * 100 + 1 * k.val = k.val; omega
  · intro k
    show V c main_arg6 (((cfg0.win 1).blk t).view.emb (ix2 q k)) = _
    refine congrArg (V c main_arg6) (funext fun a => Fin.ext ?_)
    match a with
    | ⟨0, _⟩ => show win0_1.index t (0 : Fin 2) * 100 + 1 * q.val = win0_3.index t (1 : Fin 2) * 100 + 1 * q.val; omega
    | ⟨1, _⟩ => show win0_1.index t (1 : Fin 2) * 100 + 1 * k.val = k.val; omega
  · show V c main_arg7 (((cfg0.win 2).blk t).view.emb (ix1 q)) = _
    refine congrArg (V c main_arg7) (funext fun a => Fin.ext ?_)
    match a with
    | ⟨0, _⟩ => show win0_2.index t (0 : Fin 1) * 100 + 1 * q.val = win0_3.index t (1 : Fin 2) * 100 + 1 * q.val; omega

/-- An index of the output array is in point `t`'s block iff each coordinate is in the block's range on its axis. -/
theorem mem_blk0 (t : Fin cfg0.N) (i : S100000x100.Idx) :
    i ∈ ((cfg0.win 3).blk t).view.set ↔ ∀ a : Fin 2, win0_3.index t a * S10000x100.size a ≤ (i a).val ∧ (i a).val < win0_3.index t a * S10000x100.size a + S10000x100.size a := by
  show i ∈ ((View.whole main_v68).slice (win0_3.rect t)).set ↔ _
  rw [View.set_slice_whole, Rect.mem_set_unit]
  exact Iff.rfl

/-- The ten blocks of rows tile the output array: row `r` is in block `r / 10000`. -/
theorem cover0 (i : S100000x100.Idx) : ∃ t : Fin cfg0.N, (cfg0.win 3).flush t = true ∧ i ∈ ((cfg0.win 3).blk t).view.set := by
  have hi0 : (i 0).val < 100000 := (i 0).isLt
  have hi1 : (i 1).val < 100 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 100 ≤ (i 1).val ∧ (i 1).val < win0_3.index t (1 : Fin 2) * 100 + 100; omega

/-- THE OUTPUT ARRAY after region 0: the dense layer of the three input arrays as the region finds them. -/
theorem array0 (c : Dev nD) :
    (dat0 (F := Ideal) V c).arrAt 3 cfg0.N = Cert.Dense.linearRelu (V c main_v67) (V c main_arg6) (V c main_arg7) :=
  (dat0 (F := Ideal) V c).arrAt_eq_of_cover 3 _ (fun t _ => flushed0 V c t) (cover0)

end Cert.KernelIdeal.Region0

end
-- ==== Proof.KernelRegion1.lean ====
/-
  What the second kernel region (the second hidden layer) leaves in its output array.

  The region runs its body at ten grid points. Point `t` is handed rows `10000·t … 10000·t + 9999` of the layer's
  input, the whole weight matrix and the whole bias, and writes back rows `10000·t … 10000·t + 9999` of the output.
  The body's stored entry is a dense-layer entry of the block it was handed (the payload read at an index), a
  dense-layer entry reads one row of its input, and that row of the block is the same row of the input array: so point
  `t` writes back block `t` of ONE whole-array function, the dense layer of the three arrays as the region finds
  them. The ten blocks tile the output array, so the array ends holding that function.

  Everything is stated at a parameter `V`, the buffer contents when the region is entered.
-/
import proofs.«181602_j65712999629491_1_alg».proof.Proof.Gen.KernelIdeal.Frame
import proofs.«181602_j65712999629491_1_alg».proof.Proof.KernelPay
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offsets of a whole-buffer access, in the form the library's lemmas take them. -/
theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 1: `main_v83 = max (main_v82 · main_arg8ᵀ + main_arg9) 0` -/

/-- The printed index maps, decided over the ten grid points: the input's and the output's blocks move together down
    the rows (block `t` is rows `10000·t … 10000·t + 9999`), every other block index is zero. -/
theorem idx_facts1 : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 1) = 0
    ∧ win1_3.index t (1 : Fin 2) = 0 ∧ win1_3.index t (0 : Fin 2) ≤ 9 :=
  (by decide +kernel : ∀ t : Fin grid1.N, _)

/-- Every block of rows is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

/-- WHAT POINT `t` WRITES BACK is block `t` of the dense layer of the three input arrays as the region finds them:
    the body's stored entry `(p, q)` is the layer's entry of row `p` of the input's block `t`, and that row is
    row `10000·t + p` of the input array. -/
theorem flushed1 (c : Dev nD) (t : Fin cfg1.N) :
    (dat1 (F := Ideal) V c).flushed 3 t
      = ((cfg1.win 3).blk t).view.read (Elt Ideal) (Cert.Dense.linearRelu (V c main_v82) (V c main_arg8) (V c main_arg9)) := by
  show (cfg1.win 3).cut (grid1.coords t) ((dat1 (F := Ideal) V c).after 3 t) = _
  rw [after1_3]
  unfold out1_3
  rw [View.canon_unit_zero hz2]
  simp only [View.ld_unit_zero (S := S10000x100) hz2, View.ld_unit_zero (S := S100x100) hz2, View.ld_unit_zero (S := S100) hz1]
  obtain ⟨e0, e1, e2, e3, e4, e5, e6⟩ := idx_facts1 t
  funext j
  obtain ⟨p, q, rfl⟩ : ∃ (p : Fin 10000) (q : Fin 100), j = ix2 p q := ⟨j 0, j 1, eq_ix2 j⟩
  show k1_pay1 (F := Ideal) (iblk1 V c 0 t) (iblk1 V c 1 t) (iblk1 V c 2 t) (ix2 p q)
    = Cert.Dense.linearRelu (V c main_v82) (V c main_arg8) (V c main_arg9) (((cfg1.win 3).blk t).view.emb (ix2 p q))
  refine (Pay.pay1_apply (iblk1 V c 0 t) (iblk1 V c 1 t) (iblk1 V c 2 t) p q).trans ?_
  refine Cert.Dense.linearRelu_of_block (V c main_v82) (V c main_arg8) (V c main_arg9) (iblk1 V c 0 t) (iblk1 V c 1 t) (iblk1 V c 2 t) p q
    (((cfg1.win 3).blk t).view.emb (ix2 p q)) ?_ ?_ ?_
  · intro k
    show V c main_v82 (((cfg1.win 0).blk t).view.emb (ix2 p k)) = _
    refine congrArg (V c main_v82) (funext fun a => Fin.ext ?_)
    match a with
    | ⟨0, _⟩ => show win1_0.index t (0 : Fin 2) * 10000 + 1 * p.val = win1_3.index t (0 : Fin 2) * 10000 + 1 * p.val; omega
    | ⟨1, _⟩ => show win1_0.index t (1 : Fin 2) * 100 + 1 * k.val = k.val; omega
  · intro k
    show V c main_arg8 (((cfg1.win 1).blk t).view.emb (ix2 q k)) = _
    refine congrArg (V c main_arg8) (funext fun a => Fin.ext ?_)
    match a with
    | ⟨0, _⟩ => show win1_1.index t (0 : Fin 2) * 100 + 1 * q.val = win1_3.index t (1 : Fin 2) * 100 + 1 * q.val; omega
    | ⟨1, _⟩ => show win1_1.index t (1 : Fin 2) * 100 + 1 * k.val = k.val; omega
  · show V c main_arg9 (((cfg1.win 2).blk t).view.emb (ix1 q)) = _
    refine congrArg (V c main_arg9) (funext fun a => Fin.ext ?_)
    match a with
    | ⟨0, _⟩ => show win1_2.index t (0 : Fin 1) * 100 + 1 * q.val = win1_3.index t (1 : Fin 2) * 100 + 1 * q.val; omega

/-- An index of the output array is in point `t`'s block iff each coordinate is in the block's range on its axis. -/
theorem mem_blk1 (t : Fin cfg1.N) (i : S100000x100.Idx) :
    i ∈ ((cfg1.win 3).blk t).view.set ↔ ∀ a : Fin 2, win1_3.index t a * S10000x100.size a ≤ (i a).val ∧ (i a).val < win1_3.index t a * S10000x100.size a + S10000x100.size a := by
  show i ∈ ((View.whole main_v83).slice (win1_3.rect t)).set ↔ _
  rw [View.set_slice_whole, Rect.mem_set_unit]
  exact Iff.rfl

/-- The ten blocks of rows tile the output array: row `r` is in block `r / 10000`. -/
theorem cover1 (i : S100000x100.Idx) : ∃ t : Fin cfg1.N, (cfg1.win 3).flush t = true ∧ i ∈ ((cfg1.win 3).blk t).view.set := by
  have hi0 : (i 0).val < 100000 := (i 0).isLt
  have hi1 : (i 1).val < 100 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 100 ≤ (i 1).val ∧ (i 1).val < win1_3.index t (1 : Fin 2) * 100 + 100; omega

/-- THE OUTPUT ARRAY after region 1: the dense layer of the three input arrays as the region finds them. -/
theorem array1 (c : Dev nD) :
    (dat1 (F := Ideal) V c).arrAt 3 cfg1.N = Cert.Dense.linearRelu (V c main_v82) (V c main_arg8) (V c main_arg9) :=
  (dat1 (F := Ideal) V c).arrAt_eq_of_cover 3 _ (fun t _ => flushed1 V c t) (cover1)

end Cert.KernelIdeal.Region1

end
-- ==== Proof.KernelRegion2.lean ====
/-
  What the third kernel region (the last layer) leaves in its output array.

  The region runs its body at ten grid points. Point `t` is handed rows `10000·t … 10000·t + 9999` of the second
  hidden layer's output, the whole `[50, 100]` weight matrix and the whole `[50]` bias, and writes back rows
  `10000·t … 10000·t + 9999` of the `[100000, 50]` result. The body's stored entry is a dense-layer entry of the
  block it was handed, with no clipping; a dense-layer entry reads one row of its input, and that row of the block is the
  same row of the input array: so point `t` writes back block `t` of ONE whole-array function, `Cert.Dense.linear`
  of the three arrays as the region finds them. The ten blocks tile the result, so it ends holding that function.

  Everything is stated at a parameter `V`, the buffer contents when the region is entered.
-/
import proofs.«181602_j65712999629491_1_alg».proof.Proof.Gen.KernelIdeal.Frame
import proofs.«181602_j65712999629491_1_alg».proof.Proof.KernelPay
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offsets of a whole-buffer access, in the form the library's lemmas take them. -/
theorem hz2 : (![0, 0] : Fin 2 → Nat) = fun _ => 0 := funext fun a => by fin_cases a <;> rfl
theorem hz1 : (![0] : Fin 1 → Nat) = fun _ => 0 := funext fun a => by fin_cases a; rfl

variable (V : (c : Dev nD) → (b : Ref sig .tc) → Buf (Elt Ideal) ((c : Thread nD τ).loc b))

/-! ## Region 2: `main_v84 = main_v83 · main_arg10ᵀ + main_arg11` -/

/-- The printed index maps, decided over the ten grid points: the input's and the result's blocks move together down
    the rows, every other block index is zero. -/
theorem idx_facts2 : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 1) = 0
    ∧ win2_3.index t (1 : Fin 2) = 0 ∧ win2_3.index t (0 : Fin 2) ≤ 9 :=
  (by decide +kernel : ∀ t : Fin grid2.N, _)

/-- Every block of rows is some point's. -/
theorem idx_onto2 : ∀ q0 : Fin 10, ∃ t : Fin cfg2.N, win2_3.index t = ![q0.val, 0] :=
  (by decide +kernel : ∀ q0 : Fin 10, ∃ t : Fin grid2.N, win2_3.index t = ![q0.val, 0])

/-- WHAT POINT `t` WRITES BACK is block `t` of the last layer of the three input arrays as the region finds them:
    the stored entry `(p, q)`, `q < 50`, is the layer's entry of row `p` of the input's block `t`, and that row is
    row `10000·t + p` of the input array. -/
theorem flushed2 (c : Dev nD) (t : Fin cfg2.N) :
    (dat2 (F := Ideal) V c).flushed 3 t
      = ((cfg2.win 3).blk t).view.read (Elt Ideal) (Cert.Dense.linear (V c main_v83) (V c main_arg10) (V c main_arg11)) := by
  show (cfg2.win 3).cut (grid2.coords t) ((dat2 (F := Ideal) V c).after 3 t) = _
  rw [after2_3]
  unfold out2_3
  rw [View.canon_unit_zero hz2]
  simp only [View.ld_unit_zero (S := S10000x100) hz2, View.ld_unit_zero (S := S50x100) hz2, View.ld_unit_zero (S := S50) hz1]
  obtain ⟨e0, e1, e2, e3, e4, e5, e6⟩ := idx_facts2 t
  funext j
  obtain ⟨p, q, rfl⟩ : ∃ (p : Fin 10000) (q : Fin 50), j = ix2 p q := ⟨j 0, j 1, eq_ix2 j⟩
  show k2_pay1 (F := Ideal) (iblk2 V c 0 t) (iblk2 V c 1 t) (iblk2 V c 2 t) (ix2 p q)
    = Cert.Dense.linear (V c main_v83) (V c main_arg10) (V c main_arg11) (((cfg2.win 3).blk t).view.emb (ix2 p q))
  refine (Pay.pay2_apply (iblk2 V c 0 t) (iblk2 V c 1 t) (iblk2 V c 2 t) p q).trans ?_
  refine Cert.Dense.linear_of_block (V c main_v83) (V c main_arg10) (V c main_arg11) (iblk2 V c 0 t) (iblk2 V c 1 t) (iblk2 V c 2 t) p q
    (((cfg2.win 3).blk t).view.emb (ix2 p q)) ?_ ?_ ?_
  · intro k
    show V c main_v83 (((cfg2.win 0).blk t).view.emb (ix2 p k)) = _
    refine congrArg (V c main_v83) (funext fun a => Fin.ext ?_)
    match a with
    | ⟨0, _⟩ => show win2_0.index t (0 : Fin 2) * 10000 + 1 * p.val = win2_3.index t (0 : Fin 2) * 10000 + 1 * p.val; omega
    | ⟨1, _⟩ => show win2_0.index t (1 : Fin 2) * 100 + 1 * k.val = k.val; omega
  · intro k
    show V c main_arg10 (((cfg2.win 1).blk t).view.emb (ix2 q k)) = _
    refine congrArg (V c main_arg10) (funext fun a => Fin.ext ?_)
    match a with
    | ⟨0, _⟩ => show win2_1.index t (0 : Fin 2) * 50 + 1 * q.val = win2_3.index t (1 : Fin 2) * 50 + 1 * q.val; omega
    | ⟨1, _⟩ => show win2_1.index t (1 : Fin 2) * 100 + 1 * k.val = k.val; omega
  · show V c main_arg11 (((cfg2.win 2).blk t).view.emb (ix1 q)) = _
    refine congrArg (V c main_arg11) (funext fun a => Fin.ext ?_)
    match a with
    | ⟨0, _⟩ => show win2_2.index t (0 : Fin 1) * 50 + 1 * q.val = win2_3.index t (1 : Fin 2) * 50 + 1 * q.val; omega

/-- An index of the result is in point `t`'s block iff each coordinate is in the block's range on its axis. -/
theorem mem_blk2 (t : Fin cfg2.N) (i : S100000x50.Idx) :
    i ∈ ((cfg2.win 3).blk t).view.set ↔ ∀ a : Fin 2, win2_3.index t a * S10000x50.size a ≤ (i a).val ∧ (i a).val < win2_3.index t a * S10000x50.size a + S10000x50.size a := by
  show i ∈ ((View.whole main_v84).slice (win2_3.rect t)).set ↔ _
  rw [View.set_slice_whole, Rect.mem_set_unit]
  exact Iff.rfl

/-- The ten blocks of rows tile the result: row `r` is in block `r / 10000`. -/
theorem cover2 (i : S100000x50.Idx) : ∃ t : Fin cfg2.N, (cfg2.win 3).flush t = true ∧ i ∈ ((cfg2.win 3).blk t).view.set := by
  have hi0 : (i 0).val < 100000 := (i 0).isLt
  have hi1 : (i 1).val < 50 := (i 1).isLt
  obtain ⟨t, ht⟩ := idx_onto2 ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 50 ≤ (i 1).val ∧ (i 1).val < win2_3.index t (1 : Fin 2) * 50 + 50; omega

/-- THE RESULT after region 2: the last layer of the three input arrays as the region finds them. -/
theorem array2 (c : Dev nD) :
    (dat2 (F := Ideal) V c).arrAt 3 cfg2.N = Cert.Dense.linear (V c main_v83) (V c main_arg10) (V c main_arg11) :=
  (dat2 (F := Ideal) V c).arrAt_eq_of_cover 3 _ (fun t _ => flushed2 V c t) (cover2)

end Cert.KernelIdeal.Region2

end
-- ==== Proof.RefLayers.lean ====
/-
  The reference's three dense layers, each as the dense layer `Cert.Dense` of the stage before it.

  The reference computes a layer as `dot_general` of its input with the TRANSPOSED weight matrix (contracting the
  input's second axis with the transposed matrix's first), plus the bias broadcast to one row and then over the
  rows, and for the hidden layers `relu`, a maximum with a broadcast zero. Read at an entry `i`: the contracted
  sum runs over `k` with the input at `(i 0, k)` and the transposed weights at `(k, i 1)`, that is the weights at
  `(i 1, k)`; the bias entry is `i 1`. So each layer's value is `Cert.Dense.linearRelu` / `Cert.Dense.linear` of the
  value going in, the weights and the bias — the same function the kernel's regions compute.
-/
import proofs.«181602_j65712999629491_1_alg».proof.Defs
import proofs.«181602_j65712999629491_1_alg».proof.Proof.RefRun
import proofs.«181602_j65712999629491_1_alg».proof.Proof.RefRead
import proofs.«181602_j65712999629491_1_alg».proof.Proof.LayerSpec

noncomputable section

open scoped BigOperators

namespace Cert.ReferenceIdeal.Layers

open Idealize.ShloMosaic Idealize.ShloMosaic.TcCoe Idealize.ShloMosaic.ValueIdx
open Cert.ReferenceIdeal Cert.ReferenceIdeal.Gen Cert.ReferenceIdeal.Read

/-- `main_v73` is the hidden layer of `main_v67`: at an entry, the `dot_general` against the transposed weights is the
    sum over `k` of the input's `(i 0, k)` times the weights' `(i 1, k)`, the bias broadcast twice contributes its
    entry `i 1`, and `relu` is the maximum with the zero word. -/
theorem layer1 (x0 : (⟨S100000x100, .f32⟩ : BufTy).Contents (Elt Ideal)) (x1 : (⟨S100000, .i32⟩ : BufTy).Contents (Elt Ideal)) (x2 x3 : (⟨S800000, .i32⟩ : BufTy).Contents (Elt Ideal)) (x4 : (⟨S800000, .f32⟩ : BufTy).Contents (Elt Ideal)) (x5 : (⟨S20002x1, .f32⟩ : BufTy).Contents (Elt Ideal)) (x6 : (⟨S100x100, .f32⟩ : BufTy).Contents (Elt Ideal)) (x7 : (⟨S100, .f32⟩ : BufTy).Contents (Elt Ideal)) :
    val_main_v73 (F := Ideal) x0 x1 x2 x3 x4 x5 x6 x7 = Cert.Dense.linearRelu (val_main_v67 (F := Ideal) x0 x1 x2 x3 x4 x5) x6 x7 := by
  funext i
  have hl : ∀ k : Fin 100, lidx_main_v69 i k = ix2 (⟨(i 0).val, idx2_lt0 i⟩ : Fin 100000) k := fun k =>
    funext fun a => Fin.ext (by match a with | ⟨0, _⟩ => rfl | ⟨1, _⟩ => rfl)
  have hr : ∀ k : Fin 100, idx_main_v68 (ridx_main_v69 i k) = ix2 (⟨(i 1).val, idx2_lt1 i⟩ : Fin 100) k := fun k =>
    funext fun a => Fin.ext (by match a with | ⟨0, _⟩ => rfl | ⟨1, _⟩ => rfl)
  have hb : idx_main_v70 (idx_main_v71 i) = ix1 (⟨(i 1).val, idx2_lt1 i⟩ : Fin 100) :=
    funext fun a => Fin.ext (by match a with | ⟨0, _⟩ => rfl)
  rw [val_main_v73_apply, val_main_v72_apply, val_main_v69_apply, val_main_v71_apply, val_main_v70_apply, val_main_call4_v0_apply, val_main_call4_cst_apply]
  simp only [val_main_v68_apply, hl, hr, hb]
  rfl

/-- `main_v93` is the hidden layer of `main_v87`: at an entry, the `dot_general` against the transposed weights is the
    sum over `k` of the input's `(i 0, k)` times the weights' `(i 1, k)`, the bias broadcast twice contributes its
    entry `i 1`, and `relu` is the maximum with the zero word. -/
theorem layer2 (x0 : (⟨S100000x100, .f32⟩ : BufTy).Contents (Elt Ideal)) (x1 : (⟨S100000, .i32⟩ : BufTy).Contents (Elt Ideal)) (x2 x3 : (⟨S800000, .i32⟩ : BufTy).Contents (Elt Ideal)) (x4 : (⟨S800000, .f32⟩ : BufTy).Contents (Elt Ideal)) (x5 : (⟨S20002x1, .f32⟩ : BufTy).Contents (Elt Ideal)) (x6 : (⟨S100x100, .f32⟩ : BufTy).Contents (Elt Ideal)) (x7 : (⟨S100, .f32⟩ : BufTy).Contents (Elt Ideal)) (x8 : (⟨S100x100, .f32⟩ : BufTy).Contents (Elt Ideal)) (x9 : (⟨S100, .f32⟩ : BufTy).Contents (Elt Ideal)) :
    val_main_v93 (F := Ideal) x0 x1 x2 x3 x4 x5 x6 x7 x8 x9 = Cert.Dense.linearRelu (val_main_v87 (F := Ideal) x0 x1 x2 x3 x4 x5 x6 x7) x8 x9 := by
  funext i
  have hl : ∀ k : Fin 100, lidx_main_v89 i k = ix2 (⟨(i 0).val, idx2_lt0 i⟩ : Fin 100000) k := fun k =>
    funext fun a => Fin.ext (by match a with | ⟨0, _⟩ => rfl | ⟨1, _⟩ => rfl)
  have hr : ∀ k : Fin 100, idx_main_v88 (ridx_main_v89 i k) = ix2 (⟨(i 1).val, idx2_lt1 i⟩ : Fin 100) k := fun k =>
    funext fun a => Fin.ext (by match a with | ⟨0, _⟩ => rfl | ⟨1, _⟩ => rfl)
  have hb : idx_main_v90 (idx_main_v91 i) = ix1 (⟨(i 1).val, idx2_lt1 i⟩ : Fin 100) :=
    funext fun a => Fin.ext (by match a with | ⟨0, _⟩ => rfl)
  rw [val_main_v93_apply, val_main_v92_apply, val_main_v89_apply, val_main_v91_apply, val_main_v90_apply, val_main_call5_v0_apply, val_main_call5_cst_apply]
  simp only [val_main_v88_apply, hl, hr, hb]
  rfl

/-- `main_v98`, the result, is the last layer of `main_v93`: the same reading with the `[50, 100]` weights and no
    clipping. -/
theorem layer3 (x0 : (⟨S100000x100, .f32⟩ : BufTy).Contents (Elt Ideal)) (x1 : (⟨S100000, .i32⟩ : BufTy).Contents (Elt Ideal)) (x2 x3 : (⟨S800000, .i32⟩ : BufTy).Contents (Elt Ideal)) (x4 : (⟨S800000, .f32⟩ : BufTy).Contents (Elt Ideal)) (x5 : (⟨S20002x1, .f32⟩ : BufTy).Contents (Elt Ideal)) (x6 : (⟨S100x100, .f32⟩ : BufTy).Contents (Elt Ideal)) (x7 : (⟨S100, .f32⟩ : BufTy).Contents (Elt Ideal)) (x8 : (⟨S100x100, .f32⟩ : BufTy).Contents (Elt Ideal)) (x9 : (⟨S100, .f32⟩ : BufTy).Contents (Elt Ideal)) (x10 : (⟨S50x100, .f32⟩ : BufTy).Contents (Elt Ideal)) (x11 : (⟨S50, .f32⟩ : BufTy).Contents (Elt Ideal)) :
    val_main_v98 (F := Ideal) x0 x1 x2 x3 x4 x5 x6 x7 x8 x9 x10 x11
      = Cert.Dense.linear (val_main_v93 (F := Ideal) x0 x1 x2 x3 x4 x5 x6 x7 x8 x9) x10 x11 := by
  funext i
  have hl : ∀ k : Fin 100, lidx_main_v95 i k = ix2 (⟨(i 0).val, idx2_lt0 i⟩ : Fin 100000) k := fun k =>
    funext fun a => Fin.ext (by match a with | ⟨0, _⟩ => rfl | ⟨1, _⟩ => rfl)
  have hr : ∀ k : Fin 100, idx_main_v94 (ridx_main_v95 i k) = ix2 (⟨(i 1).val, idx2_lt1 i⟩ : Fin 50) k := fun k =>
    funext fun a => Fin.ext (by match a with | ⟨0, _⟩ => rfl | ⟨1, _⟩ => rfl)
  have hb : idx_main_v96 (idx_main_v97 i) = ix1 (⟨(i 1).val, idx2_lt1 i⟩ : Fin 50) :=
    funext fun a => Fin.ext (by match a with | ⟨0, _⟩ => rfl)
  rw [val_main_v98_apply, val_main_v95_apply, val_main_v97_apply, val_main_v96_apply]
  simp only [val_main_v94_apply, hl, hr, hb]
  rfl

/-! ## The aggregate, used twice -/

section Aggregate
variable {F : FTy → Type} [FloatOps F]

/-- THE SECOND AGGREGATE IS THE FIRST AT ANOTHER INPUT. The reference aggregates the first hidden layer's output exactly
    as it aggregated the features — the rows gathered at the edges' sources (negative sources wrapped), times the same
    per-edge scale, scatter-added at the edges' targets into zeros, times the same inverse in-degree —, so the stage
    `main_v87` is the stage `main_v67`, read as a function of its first argument, at `main_v73`. Operation for operation
    the two chains are the same text; nothing is computed. -/
theorem second_aggregate (x0 : (⟨S100000x100, .f32⟩ : BufTy).Contents (Elt F)) (x1 : (⟨S100000, .i32⟩ : BufTy).Contents (Elt F))
    (x2 x3 : (⟨S800000, .i32⟩ : BufTy).Contents (Elt F)) (x4 : (⟨S800000, .f32⟩ : BufTy).Contents (Elt F))
    (x5 : (⟨S20002x1, .f32⟩ : BufTy).Contents (Elt F)) (x6 : (⟨S100x100, .f32⟩ : BufTy).Contents (Elt F))
    (x7 : (⟨S100, .f32⟩ : BufTy).Contents (Elt F)) :
    val_main_v87 (F := F) x0 x1 x2 x3 x4 x5 x6 x7
      = val_main_v67 (F := F) (val_main_v73 (F := F) x0 x1 x2 x3 x4 x5 x6 x7) x1 x2 x3 x4 x5 := by
  unfold val_main_v87 val_main_v85 val_main_v86 val_main_v84 val_main_v83 val_main_cst_23 val_main_v82 val_main_v81 val_main_v80
    val_main_v79 val_main_v78 val_main_v77 val_main_v76 val_main_c_22 val_main_v75 val_main_v74 val_main_c_21
    val_main_v67 val_main_v65 val_main_v66 val_main_v64 val_main_v63 val_main_cst_20 val_main_v62 val_main_v61 val_main_v60
    val_main_v59 val_main_v58 val_main_v57 val_main_v56 val_main_c_19 val_main_v55 val_main_v54 val_main_c_18
  rfl

end Aggregate

end Cert.ReferenceIdeal.Layers

end
-- ==== Proof.KernelValue.lean ====
/-
  The kernel's result as the reference's: the last boundary's contents at the result buffer.

  Going backwards through the kernel's @main: the result is the last layer (region 2) of the second hidden layer's
  output, with the last layer's weights and bias as launched; that output is the second hidden layer (region 1) of the
  aggregate of the first hidden layer's output; that is the first hidden layer (region 0) of the aggregate of the
  features. On the reference's side the result stage is the last layer of `main_v93`, which is the hidden layer of
  `main_v87`, the aggregate of `main_v73`, the hidden layer of `main_v67`, the aggregate of the features. Layer by
  layer and aggregate by aggregate the two are the same functions of the same arrays, so the two results are one function
  of the launch arrays.
-/
import proofs.«181602_j65712999629491_1_alg».proof.Proof.KernelHost
import proofs.«181602_j65712999629491_1_alg».proof.Proof.KernelRegion0
import proofs.«181602_j65712999629491_1_alg».proof.Proof.KernelRegion1
import proofs.«181602_j65712999629491_1_alg».proof.Proof.KernelRegion2
import proofs.«181602_j65712999629491_1_alg».proof.Proof.RefLayers

set_option maxRecDepth 16384

noncomputable section

namespace Cert.KernelIdeal.Result

open Idealize.ShloMosaic Idealize.ShloMosaic.TcCoe Idealize.SL.Sem
open Cert.KernelIdeal Cert.KernelIdeal.Gen
open Cert.ReferenceIdeal.Read (val_main_v98)

variable (m : (ℓ : Loc nD τ sig) → Buf (Elt Ideal) ℓ) (ρ : Dev nD → PrngReg) (c : Dev nD)

/-- After the first region its output array is the first hidden layer of what the region found in its input arrays. -/
theorem output0 : W10 m ρ c (Proc.devRef .tc main_v68)
    = Cert.Dense.linearRelu (W9 m ρ c (Proc.devRef .tc main_v67)) (W9 m ρ c (Proc.devRef .tc main_arg6)) (W9 m ρ c (Proc.devRef .tc main_arg7)) :=
  (W10_arr m ρ c 3).trans (Region0.array0 (V9 m ρ) c)

/-- After the second region its output array is the second hidden layer of what the region found. -/
theorem output1 : W12 m ρ c (Proc.devRef .tc main_v83)
    = Cert.Dense.linearRelu (W11 m ρ c (Proc.devRef .tc main_v82)) (W11 m ρ c (Proc.devRef .tc main_arg8)) (W11 m ρ c (Proc.devRef .tc main_arg9)) :=
  (W12_arr m ρ c 3).trans (Region1.array1 (V11 m ρ) c)

/-- After the third region the result is the last layer of what the region found. -/
theorem output2 : W13 m ρ c (Proc.devRef .tc main_v84)
    = Cert.Dense.linear (W12 m ρ c (Proc.devRef .tc main_v83)) (W12 m ρ c (Proc.devRef .tc main_arg10)) (W12 m ρ c (Proc.devRef .tc main_arg11)) :=
  (W13_arr m ρ c 3).trans (Region2.array2 (V12 m ρ) c)

/-- THE KERNEL'S RESULT IS THE REFERENCE'S RESULT STAGE of the launch arrays. -/
theorem result_eq : W13 m ρ c (Proc.devRef .tc main_v84) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [Cert.ReferenceIdeal.Layers.layer3, Cert.ReferenceIdeal.Layers.layer2, Cert.ReferenceIdeal.Layers.second_aggregate,
    Cert.ReferenceIdeal.Layers.layer1]
  rw [output2 m ρ c, Host.arg10_at_entry2 m ρ c, Host.arg11_at_entry2 m ρ c, output1 m ρ c, Host.arg8_at_entry1 m ρ c,
    Host.arg9_at_entry1 m ρ c, Host.input_at_entry1 m ρ c, output0 m ρ c, Host.input_at_entry0 m ρ c, Host.arg6_at_entry0 m ρ c,
    Host.arg7_at_entry0 m ρ c]

end Cert.KernelIdeal.Result

end
-- ==== Proof.lean ====
/-
  `Cert.Claim`: the Pallas dense layers of a two-layer mean-aggregating graph network against its jnp reference.

  Both programs compute, from node features `[100000, 100]` and 800000 weighted edges, twice
  `h ← relu (aggregate h · Wᵀ + b)` and then `h · lin_wᵀ + lin_b`, where `aggregate h` gathers `h`'s rows at the
  edges' sources, scales them per edge, scatter-adds them at the edges' targets and divides by the in-degree. The
  kernel keeps the gathers and scatter-adds as host operations, identical to the reference's, and computes the three
  dense layers in three pipelined regions of ten row blocks each; the reference computes each as a `dot_general` with
  the transposed weights, a broadcast bias and (for the hidden layers) a maximum with zero.

  At the extended reals a dense layer's entry `(p, q)` is on both sides the one sum `∑ k, X (p, k) · W (q, k)` plus
  `b q` (Proof/LayerSpec.lean): the kernel's narrowing of the operands to bf16 is the identity there, its product into a
  zero accumulator is that sum (Proof/KernelPay.lean), each row block of a region's output is a block of the layer of
  the region's input arrays and the ten blocks tile the output (Proof/KernelRegion0.lean … KernelRegion2.lean); the
  reference's `dot_general`, read at an index, is the same sum (Proof/RefLayers.lean). The host operations around
  the regions are the reference's own stages of the launch arrays (Proof/KernelHost.lean), so the result buffer of the
  kernel's run (Proof/KernelRun.lean) holds the reference's result stage of the launch arrays
  (Proof/KernelValue.lean). No law of the extended reals beyond the definition of a finite sum is used, so the
  precondition (every float input finite) is never opened. The idealization rewrote no operation: `preserves` is `True`.
  The three frames are the generated ones (the reference's from its run).
-/
import proofs.«181602_j65712999629491_1_alg».proof.Defs
import proofs.«181602_j65712999629491_1_alg».proof.Proof.Gen.Kernel
import proofs.«181602_j65712999629491_1_alg».proof.Proof.Gen.Kernel.Skeleton
import proofs.«181602_j65712999629491_1_alg».proof.Proof.Gen.Kernel.Launch
import proofs.«181602_j65712999629491_1_alg».proof.Proof.Gen.Kernel.Points
import proofs.«181602_j65712999629491_1_alg».proof.Proof.Gen.Kernel.Frame
import proofs.«181602_j65712999629491_1_alg».proof.Proof.Gen.KernelIdeal
import proofs.«181602_j65712999629491_1_alg».proof.Proof.Gen.KernelIdeal.Skeleton
import proofs.«181602_j65712999629491_1_alg».proof.Proof.Gen.KernelIdeal.Launch
import proofs.«181602_j65712999629491_1_alg».proof.Proof.Gen.KernelIdeal.Points
import proofs.«181602_j65712999629491_1_alg».proof.Proof.Gen.KernelIdeal.Frame
import proofs.«181602_j65712999629491_1_alg».proof.Proof.Gen.ReferenceIdeal
import proofs.«181602_j65712999629491_1_alg».proof.Proof.Gen.Pre_finite_inputs
import proofs.«181602_j65712999629491_1_alg».proof.Proof.RefRun
import proofs.«181602_j65712999629491_1_alg».proof.Proof.RefRead
import proofs.«181602_j65712999629491_1_alg».proof.Proof.KernelRun
import proofs.«181602_j65712999629491_1_alg».proof.Proof.KernelValue
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the kernel at the extended reals. -/
theorem frame_kernelIdeal : Cert.frame_KernelIdeal := fun m ρ _ => Cert.KernelIdeal.Gen.frame m ρ

/-- The reference, a program of host operations only, runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the twelve arguments both programs end with the reference's result stage of those
    arguments in their result buffers: the kernel by `Cert.KernelIdeal.Result.result_eq`, the reference by its run. -/
theorem algebraic : Cert.algebraic_KernelIdeal_ReferenceIdeal := by
  intro m ρ m' ρ' _ hagree
  refine ⟨fun c => Cert.ReferenceIdeal.Read.val_main_v98 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Result.result_eq m ρ c), (h c).2⟩)
      (Cert.KernelIdeal.RunV.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v98_eq, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
